-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S65536x1024 .f32) (main_arg2 : FVec F S65536x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S2x1x1 : Shape := ⟨3, ![2, 1, 1]⟩
abbrev S2x1x1024 : Shape := ⟨3, ![2, 1, 1024]⟩
abbrev S512x1024 : Shape := ⟨2, ![512, 1024]⟩
abbrev S1x1x1 : Shape := ⟨3, ![1, 1, 1]⟩
abbrev S1x1x1024 : Shape := ⟨3, ![1, 1, 1024]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x512 : Shape := ⟨2, ![1, 512]⟩
abbrev S2 : Shape := ⟨1, ![2]⟩
abbrev S2x1024 : Shape := ⟨2, ![2, 1024]⟩
abbrev S_ : Shape := ⟨0, ![]⟩
abbrev S2x1 : Shape := ⟨2, ![2, 1]⟩

abbrev nBuf : Space → Nat
  | .hbm => 40
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S2x1x1, .f32⟩
  | .hbm, ⟨19, _⟩ => ⟨S2x1x1, .f32⟩
  | .hbm, ⟨20, _⟩ => ⟨S2x1x1024, .f32⟩
  | .hbm, ⟨21, _⟩ => ⟨S2, .f32⟩
  | .hbm, ⟨22, _⟩ => ⟨S2, .f32⟩
  | .hbm, ⟨23, _⟩ => ⟨S2x1024, .f32⟩
  | .hbm, ⟨24, _⟩ => ⟨S_, .f32⟩
  | .hbm, ⟨25, _⟩ => ⟨S_, .f32⟩
  | .hbm, ⟨26, _⟩ => ⟨S2, .f32⟩
  | .hbm, ⟨27, _⟩ => ⟨S2, .f32⟩
  | .hbm, ⟨28, _⟩ => ⟨S2, .f32⟩
  | .hbm, ⟨29, _⟩ => ⟨S2, .f32⟩
  | .hbm, ⟨30, _⟩ => ⟨S_, .f32⟩
  | .hbm, ⟨31, _⟩ => ⟨S_, .f32⟩
  | .hbm, ⟨32, _⟩ => ⟨S2x1, .f32⟩
  | .hbm, ⟨33, _⟩ => ⟨S2x1024, .f32⟩
  | .hbm, ⟨34, _⟩ => ⟨S2x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1024, .f32⟩
  | .local _ .vmem, ⟨17, _⟩ => ⟨S1x1x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  broadcasts_S1x1_S512x1 : S1x1.Broadcasts S512x1
  transposes_S512x1_p1_0_S1x512 : S512x1.Transposes [1, 0] S1x512
  broadcasts_S1x1_S1x1024 : S1x1.Broadcasts S1x1024
  shapeCasts_S2x1x1_S2 : S2x1x1.ShapeCasts S2
  shapeCasts_S2x1x1024_S2x1024 : S2x1x1024.ShapeCasts S2x1024
  reducesTo_S2_S_d0 : S2.ReducesTo [0] S_
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  reducesTo_S2x1024_S1024_d0 : S2x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  dot_S512x1024_S1024x1024_S512x1024_1_0_0_1_n_n_wf : DotDims.WF S512x1024 S1024x1024 S512x1024 [1] [0] [0] [1] [] []
  dot_S1x512_S512x1024_S1x1024_1_0_0_1_n_n_wf : DotDims.WF S1x512 S512x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1024.size a ≤ S2x1x1024.size a
  hwx0_11 : ∀ i : grid0.Coords, EltTy.bits .f32 = 32 ∨ (Rect.block (s := S2x1x1024) S1x1x1024.size (cc0_transform_11 i) (hinb0_11 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S1x1x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_2) S1x1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S65536 : Shape := ⟨1, ![65536]⟩
abbrev S1 : Shape := ⟨1, ![1]⟩
abbrev S1x65536 : Shape := ⟨2, ![1, 65536]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S1024x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S1024x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S65536, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S65536, .f32⟩
  | .hbm, ⟨45, _⟩ => ⟨S65536, .f32⟩
  | .hbm, ⟨46, _⟩ => ⟨S1x65536, .f32⟩
  | .hbm, ⟨47, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  h_S_ : 0 < S_.numel
  reducesTo_S65536_S_d0 : S65536.ReducesTo [0] S_
  bcast_S_S1 : S_.BroadcastsInDim S1 (![] : Fin 0 → Fin S1.rank)
  bcast_S1_S65536_0 : S1.BroadcastsInDim S65536 (![0] : Fin 1 → Fin S65536.rank)
  bcast_S65536_S1x65536_1 : S65536.BroadcastsInDim S1x65536 (![1] : Fin 1 → Fin S1x65536.rank)
  dot_S65536x1024_S1024x1024_S65536x1024_1_0_0_1_n_n_wf : DotDims.WF S65536x1024 S1024x1024 S65536x1024 [1] [0] [0] [1] [] []
  dot_S1x65536_S65536x1024_S1x1024_1_0_0_1_n_n_wf : DotDims.WF S1x65536 S65536x1024 S1x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S1x65536_S65536x1024_S1x1024_1_0_0_1_n_n : DotDims S1x65536 S65536x1024 S1x1024 where
  lhsContracting := [1]
  rhsContracting := [0]
  lhsNonContracting := [0]
  rhsNonContracting := [1]
  lhsBatch := []
  rhsBatch := []
  wf := dot_S1x65536_S65536x1024_S1x1024_1_0_0_1_n_n_wf

class Facts : Prop extends Facts₀ where

variable [Facts]
-- ==== Proof.Pieces.lean ====
/-
  What each of the two control cases of the body leaves in the three output blocks, as the body's arithmetic applied to
  the point's input blocks: at the first point of a half the running values it reads back are the reset's (-∞, 0, 0),
  at every other point they are what the point before left.
-/
import proofs.«152375_j14955076125142_1_alg».proof.Proof.Gen.KernelIdeal.Frame
import Idealize.ShloMosaic.Lib.Pipeline.Value
import Idealize.ShloMosaic.Lib.Tactic
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The zero accumulator the three projections start from. -/
abbrev zaccF : FVec F S512x1024 .f32 := constant S512x1024 .f32 0x00000000#32

theorem outB9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : ¬cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) (xo9 : Vec F S1x1x1 .f32) (xo10 : Vec F S1x1x1 .f32) (xo11 : Vec F S1x1x1024 .f32) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11 = k0_pay1 (k0_pay12 (k0_pay6 x7) (k0_pay7 x8) (k0_pay8 x0 x3 x4) (k0_pay9 x1 x5 x6) zaccF xo9) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem outB10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : ¬cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) (xo9 : Vec F S1x1x1 .f32) (xo10 : Vec F S1x1x1 .f32) (xo11 : Vec F S1x1x1024 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11 = k0_pay15 (k0_pay6 x7) (k0_pay7 x8) (k0_pay8 x0 x3 x4) (k0_pay9 x1 x5 x6) zaccF xo9 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem outB11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : ¬cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) (xo9 : Vec F S1x1x1 .f32) (xo10 : Vec F S1x1x1 .f32) (xo11 : Vec F S1x1x1024 .f32) :
    out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11 = k0_pay16 (k0_pay5 x2) (k0_pay6 x7) (k0_pay7 x8) (k0_pay8 x0 x3 x4) (k0_pay9 x1 x5 x6) zaccF xo9 xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem outA9 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (k0_pay12 (k0_pay6 x7) (k0_pay7 x8) (k0_pay8 x0 x3 x4) (k0_pay9 x1 x5 x6) zaccF k0_pay2) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3, View.readCov_unit_zero (S := S1x1x1) _ hz3, View.readCov_unit_zero (S := S1x1x1024) _ hz3]

theorem outA10 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay15 (k0_pay6 x7) (k0_pay7 x8) (k0_pay8 x0 x3 x4) (k0_pay9 x1 x5 x6) zaccF k0_pay2 k0_pay3 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero (S := S1x1x1) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3, View.readCov_unit_zero (S := S1x1x1) _ hz3, View.readCov_unit_zero (S := S1x1x1024) _ hz3]

theorem outA11 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : cond0_0 i) (x0 : Vec F S512x1024 .f32) (x1 : Vec F S512x1024 .f32) (x2 : Vec F S512x1024 .f32) (x3 : Vec F S1024x1024 .bf16) (x4 : Vec F S1x1024 .f32) (x5 : Vec F S1024x1024 .bf16) (x6 : Vec F S1x1024 .f32) (x7 : Vec F S1024x1024 .bf16) (x8 : Vec F S1x1024 .f32) :
    out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay16 (k0_pay5 x2) (k0_pay6 x7) (k0_pay7 x8) (k0_pay8 x0 x3 x4) (k0_pay9 x1 x5 x6) zaccF k0_pay2 k0_pay4 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero (S := S1x1x1024) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz2, View.ld_unit_zero (S := S1024x1024) hz2, View.ld_unit_zero (S := S1x1024) hz2, View.ld_unit_zero (S := S1x1x1) hz3, View.ld_unit_zero (S := S1x1x1024) hz3, View.readCov_unit_zero (S := S1x1x1) _ hz3, View.readCov_unit_zero (S := S1x1x1024) _ hz3]

end Cert.KernelIdeal.Attn

end
-- ==== Proof.Spec.lean ====
/-
  Single-query attention over 65536 rows: every row has a scalar energy, the output is the softmax-weighted sum of the
  value rows. This module states the mathematics over the extended reals, free of any program.

  A row's energy: with q and k the row's two input vectors, its first encoding is max(q·w0 + b0, 0) and its second
  max(k·w1 + b1, 0); the energy is the inner product of the first with (second·wa + ba).

  The online form: rows come in tiles of 512. A running state (m, l, acc) holds a shift m, the sum l of exp(e - m) over
  the rows seen, and the sum acc of exp(e - m) times the value row. A new tile raises the shift to m' = max(m, tile
  maximum), rescales l and acc by exp(m - m') and adds the tile's terms at the shift m'. From the empty state
  (m = -∞, l = 0, acc = 0) the rescaling factor is exp(-∞) = 0.

  Two such states (one per half of the rows) are merged at the shift max(m₀, m₁):
  (Σₚ exp(mₚ - mg)·accₚ) / (Σₚ exp(mₚ - mg)·lₚ).

  The direct form: Σₙ (exp(eₙ - M) / Σₙ' exp(eₙ' - M)) · vₙ for a shift M.  A softmax does not depend on its shift, as
  long as the shift is a real number; that is why the two forms agree when every energy and value is real.
-/
import Idealize.ShloMosaic.PureOps.Ideal
import Idealize.ShloMosaic.Lib.ValueIdx

noncomputable section

open scoped BigOperators

namespace Cert.Attn

open Idealize.ShloMosaic Idealize.ShloMosaic.ValueIdx

/-- The running state of the online softmax: the shift, the sum of the shifted exponentials, and the sum of the
    shifted exponentials times the value rows (one entry per feature). -/
structure St where
  m : EReal
  l : EReal
  acc : Fin 1024 → EReal

/-- Before any row: shift -∞, both sums zero. -/
def St.init : St := ⟨⊥, 0, fun _ => 0⟩

/-- A tile of 512 rows with energies `e` and value rows `v` folded into the state. -/
def St.step (s : St) (e : Fin 512 → EReal) (v : Fin 512 → Fin 1024 → EReal) : St :=
  ⟨max s.m ((Finset.univ : Finset (Fin 512)).fold max ⊥ e),
   Ideal.exp (s.m - max s.m ((Finset.univ : Finset (Fin 512)).fold max ⊥ e)) * s.l
     + ∑ r : Fin 512, Ideal.exp (e r - max s.m ((Finset.univ : Finset (Fin 512)).fold max ⊥ e)),
   fun f => Ideal.exp (s.m - max s.m ((Finset.univ : Finset (Fin 512)).fold max ⊥ e)) * s.acc f
     + ∑ r : Fin 512, Ideal.exp (e r - max s.m ((Finset.univ : Finset (Fin 512)).fold max ⊥ e)) * v r f⟩

/-- One row's energy from its two input vectors and the three (transposed) weight matrices and biases. -/
def rowE (q k : Fin 1024 → EReal) (w0 : Fin 1024 → Fin 1024 → EReal) (b0 : Fin 1024 → EReal)
    (w1 : Fin 1024 → Fin 1024 → EReal) (b1 : Fin 1024 → EReal)
    (wa : Fin 1024 → Fin 1024 → EReal) (ba : Fin 1024 → EReal) : EReal :=
  ∑ f : Fin 1024, max ((∑ j : Fin 1024, q j * w0 j f) + b0 f) 0
    * ((∑ g : Fin 1024, max ((∑ j : Fin 1024, k j * w1 j g) + b1 g) 0 * wa g f) + ba f)

/-- The state after tile `n`, tiles numbered from 0, a fresh state started at every multiple of 64. -/
def chain (eT : ℕ → Fin 512 → EReal) (vT : ℕ → Fin 512 → Fin 1024 → EReal) : ℕ → St
  | 0 => St.init.step (eT 0) (vT 0)
  | n + 1 => if (n + 1) % 64 = 0 then St.init.step (eT (n + 1)) (vT (n + 1))
             else (chain eT vT n).step (eT (n + 1)) (vT (n + 1))

/-- Two states merged at their common shift, at feature `f`. -/
def merge (s : Fin 2 → St) (f : Fin 1024) : EReal :=
  Ideal.div
    (0 + ∑ p : Fin 2, Ideal.exp ((s p).m - (Finset.univ : Finset (Fin 2)).fold max ⊥ (fun p => (s p).m)) * (s p).acc f)
    (0 + ∑ p : Fin 2, Ideal.exp ((s p).m - (Finset.univ : Finset (Fin 2)).fold max ⊥ (fun p => (s p).m)) * (s p).l)

/-- The direct softmax-weighted sum at shift `M`, at feature `f`. -/
def refOut (E : Fin 65536 → EReal) (V : Fin 65536 → Fin 1024 → EReal) (M : EReal) (f : Fin 1024) : EReal :=
  ∑ n : Fin 65536, Ideal.div (Ideal.exp (E n - M)) (0 + ∑ n' : Fin 65536, Ideal.exp (E n' - M)) * V n f

/-- Row `r` of tile `t` is row `512 t + r` of the whole array. -/
def row (t : ℕ) (r : Fin 512) : Fin 65536 := ⟨(512 * t + r.val) % 65536, Nat.mod_lt _ (by norm_num)⟩

/-- The energies of all rows from the input arrays: `Q` and `K` hold a row's two input vectors, the three weight
    matrices are stored feature-major (entry (f, j) multiplies input coordinate j into feature f). -/
def Eof (K Q : FVec Ideal ⟨2, ![65536, 1024]⟩ .f32) (W0 : FVec Ideal ⟨2, ![1024, 1024]⟩ .f32) (b0 : FVec Ideal ⟨1, ![1024]⟩ .f32)
    (W1 : FVec Ideal ⟨2, ![1024, 1024]⟩ .f32) (b1 : FVec Ideal ⟨1, ![1024]⟩ .f32)
    (Wa : FVec Ideal ⟨2, ![1024, 1024]⟩ .f32) (ba : FVec Ideal ⟨1, ![1024]⟩ .f32) (n : Fin 65536) : EReal :=
  rowE (fun j => Q (ix2 n j)) (fun j => K (ix2 n j)) (fun j f => W0 (ix2 f j)) (fun f => b0 (ix1 f))
    (fun j g => W1 (ix2 g j)) (fun g => b1 (ix1 g)) (fun g f => Wa (ix2 f g)) (fun f => ba (ix1 f))

/-- The value rows. -/
def Vof (V : FVec Ideal ⟨2, ![65536, 1024]⟩ .f32) (n : Fin 65536) (f : Fin 1024) : EReal := V (ix2 n f)

/-- An extended real that is a real number. -/
def IsReal (x : EReal) : Prop := ∃ r : ℝ, x = (r : EReal)

end Cert.Attn

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Payload.lean ====
/-
  One grid point's arithmetic at the ideal values: from the point's input blocks and the three running outputs (shift,
  sum of exponentials, weighted value sum) the body leaves exactly one online-softmax step of the specification, with
  the tile's energies computed from the blocks and the value block's rows as the value rows.
-/
import proofs.«152375_j14955076125142_1_alg».proof.Proof.Gen.KernelIdeal.Skeleton
import proofs.«152375_j14955076125142_1_alg».proof.Proof.Spec
import proofs.«152375_j14955076125142_1_alg».proof.Proof.LibDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn

/-- The zero accumulator the three projections start from. -/
abbrev zacc {F : FTy → Type} [FloatOps F] : FVec F S512x1024 .f32 := constant S512x1024 .f32 0x00000000#32

/-- A state as the three output blocks hold it: the shift and the sum in one-entry blocks, the weighted sum along the last axis. -/
def toOuts (s : St) : Vec Ideal S1x1x1 .f32 × Vec Ideal S1x1x1 .f32 × Vec Ideal S1x1x1024 .f32 :=
  (fun _ => s.m, fun _ => s.l, fun i => s.acc ⟨(i 2).val, (i 2).isLt⟩)

/-- The state three output blocks hold. -/
def ofOuts (o : Vec Ideal S1x1x1 .f32 × Vec Ideal S1x1x1 .f32 × Vec Ideal S1x1x1024 .f32) : St :=
  ⟨o.1 (ix3 0 0 0), o.2.1 (ix3 0 0 0), fun f => o.2.2 (ix3 0 0 f)⟩

theorem ofOuts_toOuts (s : St) : ofOuts (toOuts s) = s := by
  cases s; rfl

/-- The f32 pattern of -∞. -/
theorem ofBits_ninf_f32 : Ideal.ofBits .f32 0xFF800000#32 = ⊥ := by
  simp [Ideal.ofBits, Ideal.ieee]

/-- The blocks the reset stores (-∞, 0, 0) hold the empty state. -/
theorem ofOuts_reset : ofOuts ((k0_pay2 : FVec Ideal S1x1x1 .f32), (k0_pay3 : FVec Ideal S1x1x1 .f32), (k0_pay4 : FVec Ideal S1x1x1024 .f32)) = St.init := by
  have h2 : (k0_pay2 : FVec Ideal S1x1x1 .f32) (ix3 0 0 0) = ⊥ := ofBits_ninf_f32
  have h3 : (k0_pay3 : FVec Ideal S1x1x1 .f32) (ix3 0 0 0) = 0 := Ideal.ofBits_zero_f32
  have h4 : ∀ f : Fin 1024, (k0_pay4 : FVec Ideal S1x1x1024 .f32) (ix3 0 0 f) = 0 := fun f => Ideal.ofBits_zero_f32
  exact congr (congr (congrArg St.mk h2) h3) (funext h4)

/-- The tile's energies from the point's blocks: row `r` of the two input blocks against the three weight blocks
    (stored input-major: entry (j, f)) and the bias rows. -/
def tileE (x0 x1 : Vec Ideal S512x1024 .f32) (x3 : Vec Ideal S1024x1024 .bf16) (x4 : Vec Ideal S1x1024 .f32)
    (x5 : Vec Ideal S1024x1024 .bf16) (x6 : Vec Ideal S1x1024 .f32) (x7 : Vec Ideal S1024x1024 .bf16) (x8 : Vec Ideal S1x1024 .f32)
    (r : Fin 512) : EReal :=
  rowE (fun j => x0 (ix2 r j)) (fun j => x1 (ix2 r j)) (fun j f => x3 (ix2 j f)) (fun f => x4 (ix2 0 f))
    (fun j g => x5 (ix2 j g)) (fun g => x6 (ix2 0 g)) (fun g f => x7 (ix2 g f)) (fun f => x8 (ix2 0 f))

theorem pay6_eq (x : Vec Ideal S1024x1024 .bf16) : k0_pay6 x = x := shapeCast_self _ _
theorem pay7_eq (x : Vec Ideal S1x1024 .f32) : k0_pay7 x = x := shapeCast_self _ _

/-- The first encoding at (r, f): max(q·w0 + b0, 0). -/
theorem pay8_at (x0 : Vec Ideal S512x1024 .f32) (x3 : Vec Ideal S1024x1024 .bf16) (x4 : Vec Ideal S1x1024 .f32) (r : Fin 512) (f : Fin 1024) :
    k0_pay8 x0 x3 x4 (ix2 r f) = max ((∑ j : Fin 1024, x0 (ix2 r j) * x3 (ix2 j f)) + x4 (ix2 0 f)) 0 := by
  unfold k0_pay8
  show max (matmul (F := Ideal) dot_S512x1024_S1024x1024_S512x1024_1_0_0_1_n_n none (truncf (F := Ideal) .bf16 x0 _) (shapeCast S1024x1024 x3 _) (constant (F := Ideal) S512x1024 .f32 0x00000000#32) (ix2 r f) + broadcastTo S512x1024 (shapeCast S1x1024 x4 _) _ (ix2 r f)) (Ideal.ofBits .f32 0x00000000#32) = _
  rw [shapeCast_self, shapeCast_self, Ideal.ofBits_zero_f32, broadcastTo_1b_ab_apply,
    Cert.LibDot.matmul_10_zero_apply _ rfl rfl rfl rfl rfl rfl]
  rfl

/-- The second encoding at (r, g): max(k·w1 + b1, 0). -/
theorem pay9_at (x1 : Vec Ideal S512x1024 .f32) (x5 : Vec Ideal S1024x1024 .bf16) (x6 : Vec Ideal S1x1024 .f32) (r : Fin 512) (g : Fin 1024) :
    k0_pay9 x1 x5 x6 (ix2 r g) = max ((∑ j : Fin 1024, x1 (ix2 r j) * x5 (ix2 j g)) + x6 (ix2 0 g)) 0 := by
  unfold k0_pay9
  show max (matmul (F := Ideal) dot_S512x1024_S1024x1024_S512x1024_1_0_0_1_n_n none (truncf (F := Ideal) .bf16 x1 _) (shapeCast S1024x1024 x5 _) (constant (F := Ideal) S512x1024 .f32 0x00000000#32) (ix2 r g) + broadcastTo S512x1024 (shapeCast S1x1024 x6 _) _ (ix2 r g)) (Ideal.ofBits .f32 0x00000000#32) = _
  rw [shapeCast_self, shapeCast_self, Ideal.ofBits_zero_f32, broadcastTo_1b_ab_apply,
    Cert.LibDot.matmul_10_zero_apply _ rfl rfl rfl rfl rfl rfl]
  rfl

/-- A vector cast to a column reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index over row r with lane k inserted is (r, k). -/
theorem lift_lane (h : S512x1024.Reduces [1] S512) (r : Fin 512) (k : Fin 1024) : h.lift (ix1 r) k = ix2 r k := by
  funext a; apply Fin.ext
  match a with
  | ⟨0, _⟩ => rfl
  | ⟨1, _⟩ => rfl

/-- The index over the one column entry with row r inserted is (r, 0). -/
theorem lift_row (h : S512x1.Reduces [0] S1) (u : Fin 1) (r : Fin 512) : h.lift (ix1 u) r = ix2 r (0 : Fin 1) := by
  funext a; apply Fin.ext
  match a with
  | ⟨0, _⟩ => rfl
  | ⟨1, h1⟩ =>
    have hu := (h.lift (ix1 u) r ⟨1, h1⟩).isLt
    have hs : S512x1.size ⟨1, h1⟩ = 1 := rfl
    show (h.lift (ix1 u) r ⟨1, h1⟩).val = 0
    omega

/-- A row's energy from the two encodings, the last weight block and its bias. -/
theorem pay10_at (v14 : FVec Ideal S1024x1024 .bf16) (v20 : FVec Ideal S1x1024 .f32) (v25 : FVec Ideal S512x1024 .f32) (v31 : FVec Ideal S512x1024 .bf16) (r : Fin 512) (u : Fin 1) :
    k0_pay10 v14 v20 v25 v31 zacc (ix2 r u)
      = ∑ f : Fin 1024, v25 (ix2 r f) * ((∑ g : Fin 1024, v31 (ix2 r g) * v14 (ix2 g f)) + v20 (ix2 0 f)) := by
  unfold k0_pay10
  refine (shapeCast_a_a1_apply _ _ r u).trans ?_
  refine (Ideal.multiReduction_add_single _ _ _ _ _ _).trans ?_
  show ∑ k : Fin 1024, _ = _
  refine Finset.sum_congr rfl fun k _ => ?_
  rw [lift_lane]
  show v25 (ix2 r k) * (matmul (F := Ideal) dot_S512x1024_S1024x1024_S512x1024_1_0_0_1_n_n none v31 v14 (constant (F := Ideal) S512x1024 .f32 0x00000000#32) (ix2 r k) + broadcastTo S512x1024 v20 _ (ix2 r k)) = _
  rw [broadcastTo_1b_ab_apply, Cert.LibDot.matmul_10_zero_apply _ rfl rfl rfl rfl rfl rfl]

/-- The energies the body computes are the specification's tile energies. -/
theorem energy_at (x0 x1 : Vec Ideal S512x1024 .f32) (x3 : Vec Ideal S1024x1024 .bf16) (x4 : Vec Ideal S1x1024 .f32)
    (x5 : Vec Ideal S1024x1024 .bf16) (x6 : Vec Ideal S1x1024 .f32) (x7 : Vec Ideal S1024x1024 .bf16) (x8 : Vec Ideal S1x1024 .f32)
    (r : Fin 512) (u : Fin 1) :
    k0_pay10 (k0_pay6 x7) (k0_pay7 x8) (k0_pay8 x0 x3 x4) (k0_pay9 x1 x5 x6) zacc (ix2 r u) = tileE x0 x1 x3 x4 x5 x6 x7 x8 r := by
  rw [pay6_eq, pay7_eq, pay10_at]
  unfold tileE rowE
  refine Finset.sum_congr rfl fun f _ => ?_
  rw [pay8_at]
  refine congrArg (fun t => max ((∑ j : Fin 1024, x0 (ix2 r j) * x3 (ix2 j f)) + x4 (ix2 0 f)) 0 * (t + x8 (ix2 0 f))) ?_
  refine Finset.sum_congr rfl fun g _ => ?_
  rw [pay9_at]

/-- Every index of a one-entry matrix is (0, 0). -/
theorem idx11 (i : S1x1.Idx) : i = ix2 (0 : Fin 1) (0 : Fin 1) := by
  funext a
  match a with
  | ⟨0, _⟩ => exact Subsingleton.elim (α := Fin 1) _ _
  | ⟨1, _⟩ => exact Subsingleton.elim (α := Fin 1) _ _
/-- Every index of a one-entry block is (0, 0, 0). -/
theorem idx111 (i : S1x1x1.Idx) : i = ix3 (0 : Fin 1) (0 : Fin 1) (0 : Fin 1) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _

/-- A one-entry matrix broadcast along the lanes reads its entry everywhere. -/
theorem broadcastTo_11_1b_apply {α : Type} {b : ℕ} (v : (⟨2, ![1, 1]⟩ : Shape).Idx → α) (h : (⟨2, ![1, 1]⟩ : Shape).Broadcasts ⟨2, ![1, b]⟩)
    (p : Fin 1) (c : Fin b) : broadcastTo ⟨2, ![1, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

section Online
variable (v14 : FVec Ideal S1024x1024 .bf16) (v20 : FVec Ideal S1x1024 .f32) (v25 : FVec Ideal S512x1024 .f32)
  (v31 : FVec Ideal S512x1024 .bf16) (v38 : Vec Ideal S1x1x1 .f32) (e : Fin 512 → EReal)

/-- The stored shift read as a one-entry matrix. -/
theorem pay11_at (a b : Fin 1) : k0_pay11 v38 (ix2 a b) = v38 (ix3 0 0 0) := by
  unfold k0_pay11
  refine (shapeCast_1ab_ab_apply _ _ a b).trans ?_
  rw [Subsingleton.elim a 0, Subsingleton.elim b 0]

/-- The new shift: the larger of the stored one and the tile's maximal energy. -/
theorem pay12_at (he : ∀ r u, k0_pay10 v14 v20 v25 v31 zacc (ix2 r u) = e r) (a b : Fin 1) :
    k0_pay12 v14 v20 v25 v31 zacc v38 (ix2 a b)
      = max (v38 (ix3 0 0 0)) ((Finset.univ : Finset (Fin 512)).fold max ⊥ e) := by
  unfold k0_pay12
  show max (k0_pay11 v38 (ix2 a b)) (shapeCast S1x1 _ _ (ix2 a b)) = _
  rw [pay11_at, shapeCast_a_1a_apply]
  refine congrArg (max (v38 (ix3 0 0 0))) ?_
  refine (Ideal.multiReduction_maximumf_single _ _ _ _ _ _).trans ?_
  show (Finset.univ : Finset (Fin 512)).fold max (Ideal.ofBits .f32 0xFF800000#32) _ = _
  rw [ofBits_ninf_f32]
  refine congrArg (fun g : Fin 512 → EReal => (Finset.univ : Finset (Fin 512)).fold max ⊥ g) (funext fun (r : Fin 512) => ?_)
  exact (congrArg (k0_pay10 v14 v20 v25 v31 zacc) (lift_row _ b r)).trans (he r 0)

/-- The rescaling factor exp(m - m'). -/
theorem pay13_at (he : ∀ r u, k0_pay10 v14 v20 v25 v31 zacc (ix2 r u) = e r) (a b : Fin 1) :
    k0_pay13 v14 v20 v25 v31 zacc v38 (ix2 a b)
      = Ideal.exp (v38 (ix3 0 0 0) - max (v38 (ix3 0 0 0)) ((Finset.univ : Finset (Fin 512)).fold max ⊥ e)) := by
  unfold k0_pay13
  show Ideal.exp (k0_pay11 v38 (ix2 a b) - k0_pay12 v14 v20 v25 v31 zacc v38 (ix2 a b)) = _
  rw [pay11_at, pay12_at v14 v20 v25 v31 v38 e he]

/-- A row's weight exp(e r - m'). -/
theorem pay14_at (he : ∀ r u, k0_pay10 v14 v20 v25 v31 zacc (ix2 r u) = e r) (r : Fin 512) (u : Fin 1) :
    k0_pay14 v14 v20 v25 v31 zacc v38 (ix2 r u)
      = Ideal.exp (e r - max (v38 (ix3 0 0 0)) ((Finset.univ : Finset (Fin 512)).fold max ⊥ e)) := by
  unfold k0_pay14
  show Ideal.exp (k0_pay10 v14 v20 v25 v31 zacc (ix2 r u) - broadcastTo S512x1 (k0_pay12 v14 v20 v25 v31 zacc v38) _ (ix2 r u)) = _
  rw [he, broadcastTo_1b_ab_apply, pay12_at v14 v20 v25 v31 v38 e he]

/-- The new sum: the old one rescaled plus the tile's weights. -/
theorem pay15_at (he : ∀ r u, k0_pay10 v14 v20 v25 v31 zacc (ix2 r u) = e r) (v50 : Vec Ideal S1x1x1 .f32) (i : S1x1x1.Idx) :
    k0_pay15 v14 v20 v25 v31 zacc v38 v50 i
      = Ideal.exp (v38 (ix3 0 0 0) - max (v38 (ix3 0 0 0)) ((Finset.univ : Finset (Fin 512)).fold max ⊥ e)) * v50 (ix3 0 0 0)
        + ∑ r : Fin 512, Ideal.exp (e r - max (v38 (ix3 0 0 0)) ((Finset.univ : Finset (Fin 512)).fold max ⊥ e)) := by
  rw [idx111 i]
  unfold k0_pay15
  refine (shapeCast_ab_1ab_apply _ _ 0 0 0).trans ?_
  show k0_pay13 v14 v20 v25 v31 zacc v38 (ix2 0 0) * shapeCast S1x1 v50 _ (ix2 0 0) + shapeCast S1x1 _ _ (ix2 0 0) = _
  rw [pay13_at v14 v20 v25 v31 v38 e he, shapeCast_1ab_ab_apply, shapeCast_a_1a_apply]
  refine congrArg (fun t : EReal => Ideal.exp (v38 (ix3 0 0 0) - max (v38 (ix3 0 0 0)) ((Finset.univ : Finset (Fin 512)).fold max ⊥ e)) * v50 (ix3 0 0 0) + t) ?_
  refine (Ideal.multiReduction_add_single _ _ _ _ _ _).trans ?_
  show ∑ r : Fin 512, _ = _
  refine Finset.sum_congr rfl fun r _ => ?_
  exact (congrArg (k0_pay14 v14 v20 v25 v31 zacc v38) (lift_row _ 0 r)).trans (pay14_at v14 v20 v25 v31 v38 e he r 0)

/-- The new weighted sum at feature f: the old one rescaled plus the tile's weighted value rows. -/
theorem pay16_at (he : ∀ r u, k0_pay10 v14 v20 v25 v31 zacc (ix2 r u) = e r) (v8 : FVec Ideal S512x1024 .bf16)
    (v60 : Vec Ideal S1x1x1024 .f32) (a b : Fin 1) (f : Fin 1024) :
    k0_pay16 v8 v14 v20 v25 v31 zacc v38 v60 (ix3 a b f)
      = Ideal.exp (v38 (ix3 0 0 0) - max (v38 (ix3 0 0 0)) ((Finset.univ : Finset (Fin 512)).fold max ⊥ e)) * v60 (ix3 0 0 f)
        + ∑ r : Fin 512, Ideal.exp (e r - max (v38 (ix3 0 0 0)) ((Finset.univ : Finset (Fin 512)).fold max ⊥ e)) * v8 (ix2 r f) := by
  obtain rfl : a = 0 := Subsingleton.elim _ _
  obtain rfl : b = 0 := Subsingleton.elim _ _
  unfold k0_pay16
  refine (shapeCast_ab_1ab_apply _ _ 0 0 f).trans ?_
  show broadcastTo S1x1024 (k0_pay13 v14 v20 v25 v31 zacc v38) _ (ix2 0 f) * shapeCast S1x1024 v60 _ (ix2 0 f)
      + matmul (F := Ideal) dot_S1x512_S512x1024_S1x1024_1_0_0_1_n_n none
          (transpose S1x512 [1, 0] (truncf (F := Ideal) .bf16 (k0_pay14 v14 v20 v25 v31 zacc v38) _) _) v8
          (constant (F := Ideal) S1x1024 .f32 0x00000000#32) (ix2 0 f) = _
  rw [broadcastTo_11_1b_apply, pay13_at v14 v20 v25 v31 v38 e he, shapeCast_1ab_ab_apply,
    Cert.LibDot.matmul_10_zero_apply _ rfl rfl rfl rfl rfl rfl]
  refine congrArg (fun t : EReal => Ideal.exp (v38 (ix3 0 0 0) - max (v38 (ix3 0 0 0)) ((Finset.univ : Finset (Fin 512)).fold max ⊥ e)) * v60 (ix3 0 0 f) + t) ?_
  refine Finset.sum_congr rfl fun r _ => ?_
  rw [transpose_ix2_apply]
  show k0_pay14 v14 v20 v25 v31 zacc v38 (ix2 r 0) * v8 (ix2 r f) = _
  rw [pay14_at v14 v20 v25 v31 v38 e he]

end Online

/-- The stored shift block reads the one-entry matrix's entry. -/
theorem pay1_at (v : FVec Ideal S1x1 .f32) (i : S1x1x1.Idx) : k0_pay1 v i = v (ix2 (0 : Fin 1) (0 : Fin 1)) := by
  rw [idx111 i]
  unfold k0_pay1
  exact shapeCast_ab_1ab_apply _ _ 0 0 0

/-- The body's three stored values are one step of the online softmax. -/
theorem pay_step (x0 : Vec Ideal S512x1024 .f32) (x1 : Vec Ideal S512x1024 .f32) (x2 : Vec Ideal S512x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) (xo9 : Vec Ideal S1x1x1 .f32) (xo10 : Vec Ideal S1x1x1 .f32) (xo11 : Vec Ideal S1x1x1024 .f32) :
    ((k0_pay1 (k0_pay12 (k0_pay6 x7) (k0_pay7 x8) (k0_pay8 x0 x3 x4) (k0_pay9 x1 x5 x6) zacc xo9) : Vec Ideal S1x1x1 .f32),
     (k0_pay15 (k0_pay6 x7) (k0_pay7 x8) (k0_pay8 x0 x3 x4) (k0_pay9 x1 x5 x6) zacc xo9 xo10 : Vec Ideal S1x1x1 .f32),
     (k0_pay16 (k0_pay5 x2) (k0_pay6 x7) (k0_pay7 x8) (k0_pay8 x0 x3 x4) (k0_pay9 x1 x5 x6) zacc xo9 xo11 : Vec Ideal S1x1x1024 .f32))
    = toOuts ((ofOuts (xo9, xo10, xo11)).step (tileE x0 x1 x3 x4 x5 x6 x7 x8) (fun r f => x2 (ix2 r f))) := by
  have he := energy_at x0 x1 x3 x4 x5 x6 x7 x8
  have h1 : (k0_pay1 (k0_pay12 (k0_pay6 x7) (k0_pay7 x8) (k0_pay8 x0 x3 x4) (k0_pay9 x1 x5 x6) zacc xo9) : Vec Ideal S1x1x1 .f32)
      = (toOuts ((ofOuts (xo9, xo10, xo11)).step (tileE x0 x1 x3 x4 x5 x6 x7 x8) (fun r f => x2 (ix2 r f)))).1 := by
    funext i
    rw [pay1_at, pay12_at _ _ _ _ _ _ he]
    rfl
  have h2 : (k0_pay15 (k0_pay6 x7) (k0_pay7 x8) (k0_pay8 x0 x3 x4) (k0_pay9 x1 x5 x6) zacc xo9 xo10 : Vec Ideal S1x1x1 .f32)
      = (toOuts ((ofOuts (xo9, xo10, xo11)).step (tileE x0 x1 x3 x4 x5 x6 x7 x8) (fun r f => x2 (ix2 r f)))).2.1 := by
    funext i
    rw [pay15_at _ _ _ _ _ _ he]
    rfl
  have h3 : (k0_pay16 (k0_pay5 x2) (k0_pay6 x7) (k0_pay7 x8) (k0_pay8 x0 x3 x4) (k0_pay9 x1 x5 x6) zacc xo9 xo11 : Vec Ideal S1x1x1024 .f32)
      = (toOuts ((ofOuts (xo9, xo10, xo11)).step (tileE x0 x1 x3 x4 x5 x6 x7 x8) (fun r f => x2 (ix2 r f)))).2.2 := by
    funext i
    obtain ⟨a, b, f, rfl⟩ : ∃ (a b : Fin 1) (f : Fin 1024), i = ix3 a b f := ⟨i 0, i 1, i 2, eq_ix3 i⟩
    rw [pay16_at _ _ _ _ _ _ he]
    rfl
  rw [h1, h2, h3]

end Cert.KernelIdeal.Attn

end
-- ==== Proof.Blocks.lean ====
/-
  The point's input blocks read off the arrays as the region finds them: point `t` reads rows 512 t … 512 t + 511 of
  the three row arrays; the weight blocks are the whole transposed weight matrices (entry (j, f) of a block is entry
  (f, j) of the launched matrix) and the bias rows the launched bias vectors. So the tile's energies and value rows are
  the whole arrays' energies and value rows at those rows.
-/
import proofs.«152375_j14955076125142_1_alg».proof.Proof.Gen.KernelIdeal.Frame
import proofs.«152375_j14955076125142_1_alg».proof.Proof.Payload
import Idealize.ShloMosaic.Lib.Pipeline.Value
import Idealize.ShloMosaic.Lib.StableHlo.Run
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn

variable (m : (ℓ : Loc nD τ sig) → Buf (Elt Ideal) ℓ)

/-- The energies of all rows, from the launch contents of the arguments. -/
def Em (c : Dev nD) : Fin 65536 → EReal :=
  Eof (m ((c : Thread nD τ).loc main_arg0)) (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- The value rows, from the launch contents of the third argument. -/
def Vm (c : Dev nD) : Fin 65536 → Fin 1024 → EReal := Vof (m ((c : Thread nD τ).loc main_arg2))

/-- The nine input blocks of point `t` at their literal types. -/
abbrev qblk (c : Dev nD) (t : Fin cfg0.N) : Vec Ideal S512x1024 .f32 := iblk m c 0 t
abbrev kblk (c : Dev nD) (t : Fin cfg0.N) : Vec Ideal S512x1024 .f32 := iblk m c 1 t
abbrev vblk (c : Dev nD) (t : Fin cfg0.N) : Vec Ideal S512x1024 .f32 := iblk m c 2 t
abbrev w0blk (c : Dev nD) (t : Fin cfg0.N) : Vec Ideal S1024x1024 .bf16 := iblk m c 3 t
abbrev b0blk (c : Dev nD) (t : Fin cfg0.N) : Vec Ideal S1x1024 .f32 := iblk m c 4 t
abbrev w1blk (c : Dev nD) (t : Fin cfg0.N) : Vec Ideal S1024x1024 .bf16 := iblk m c 5 t
abbrev b1blk (c : Dev nD) (t : Fin cfg0.N) : Vec Ideal S1x1024 .f32 := iblk m c 6 t
abbrev wablk (c : Dev nD) (t : Fin cfg0.N) : Vec Ideal S1024x1024 .bf16 := iblk m c 7 t
abbrev bablk (c : Dev nD) (t : Fin cfg0.N) : Vec Ideal S1x1024 .f32 := iblk m c 8 t

/-! ## Where each window's block sits: the block index at every grid point -/

/-- The three row windows sit at block row `t`, block column 0, at grid point `t`. -/
theorem rowWin_index : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) := by
  decide +kernel

/-- The three weight windows sit at block (0, 0) at every grid point. -/
theorem weightWin_index : ∀ t : Fin grid0.N,
    (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0) := by
  decide +kernel

/-- The three bias windows sit at block (0, 0) at every grid point. -/
theorem biasWin_index : ∀ t : Fin grid0.N,
    (win0_4.index t (0 : Fin 2) = 0 ∧ win0_4.index t (1 : Fin 2) = 0)
    ∧ (win0_6.index t (0 : Fin 2) = 0 ∧ win0_6.index t (1 : Fin 2) = 0)
    ∧ (win0_8.index t (0 : Fin 2) = 0 ∧ win0_8.index t (1 : Fin 2) = 0) := by
  decide +kernel

/-- With 128 tiles of 512 rows, row `r` of tile `t` is row `512 t + r`: no wrap-around below 65536. -/
theorem row_val (t : Fin cfg0.N) (r : Fin 512) : (row t.val r).val = 512 * t.val + r.val := by
  have h : t.val < 128 := by
    have h1 := t.isLt
    have hN : cfg0.N = 128 := N_0
    omega
  show (512 * t.val + r.val) % 65536 = _
  omega

/-! ## The three row blocks -/

/-- The first row block reads the second argument at the tile's rows. -/
theorem qblk_apply (c : Dev nD) (t : Fin cfg0.N) (r : Fin 512) (j : Fin 1024) :
    qblk m c t (ix2 r j) = m ((c : Thread nD τ).loc main_arg1) (ix2 (row t.val r) j) := by
  unfold qblk iblk
  rw [View.read_apply]
  show V m c main_arg1 _ = _
  rw [V_main_arg1]
  congr 1
  funext a
  apply Fin.ext
  match a with
  | ⟨0, _⟩ =>
    show win0_0.index t 0 * 512 + 1 * r.val = (row t.val r).val
    rw [(rowWin_index t).1.1, row_val]; omega
  | ⟨1, _⟩ =>
    show win0_0.index t 1 * 1024 + 1 * j.val = j.val
    rw [(rowWin_index t).1.2]; omega

/-- The second row block reads the first argument at the tile's rows. -/
theorem kblk_apply (c : Dev nD) (t : Fin cfg0.N) (r : Fin 512) (j : Fin 1024) :
    kblk m c t (ix2 r j) = m ((c : Thread nD τ).loc main_arg0) (ix2 (row t.val r) j) := by
  unfold kblk iblk
  rw [View.read_apply]
  show V m c main_arg0 _ = _
  rw [V_main_arg0]
  congr 1
  funext a
  apply Fin.ext
  match a with
  | ⟨0, _⟩ =>
    show win0_1.index t 0 * 512 + 1 * r.val = (row t.val r).val
    rw [(rowWin_index t).2.1.1, row_val]; omega
  | ⟨1, _⟩ =>
    show win0_1.index t 1 * 1024 + 1 * j.val = j.val
    rw [(rowWin_index t).2.1.2]; omega

/-- The value block reads the third argument at the tile's rows. -/
theorem vblk_arg (c : Dev nD) (t : Fin cfg0.N) (r : Fin 512) (j : Fin 1024) :
    vblk m c t (ix2 r j) = m ((c : Thread nD τ).loc main_arg2) (ix2 (row t.val r) j) := by
  unfold vblk iblk
  rw [View.read_apply]
  show V m c main_arg2 _ = _
  rw [V_main_arg2]
  congr 1
  funext a
  apply Fin.ext
  match a with
  | ⟨0, _⟩ =>
    show win0_2.index t 0 * 512 + 1 * r.val = (row t.val r).val
    rw [(rowWin_index t).2.2.1, row_val]; omega
  | ⟨1, _⟩ =>
    show win0_2.index t 1 * 1024 + 1 * j.val = j.val
    rw [(rowWin_index t).2.2.2]; omega

/-! ## The weight blocks: the launched matrices transposed (the change of format is the identity on extended reals) -/

/-- Entry (j, f) of the first weight array as the region finds it is entry (f, j) of the launched matrix. -/
theorem V_w0_apply (c : Dev nD) (j f : Fin 1024) :
    (V m c main_v1 : S1024x1024.Idx → EReal) (ix2 j f) = m ((c : Thread nD τ).loc main_arg3) (ix2 f j) := by
  have e : @Eq (FVec Ideal S1024x1024 .bf16) (V m c main_v1)
      (truncf .bf16 (transpose S1024x1024 [1, 0] (m ((c : Thread nD τ).loc main_arg3)) transposes_S1024x1024_S1024x1024_1_0) bitsLt_bf16_f32) := by
    show StableHlo.after hostOps0 (fun b => m (c, b)) (Proc.devRef .tc main_v1) = _
    after_results
  rw [e]
  exact transpose_ix2_apply _ _ j f

/-- The first weight block is the whole array: the launched matrix transposed. -/
theorem w0blk_apply (c : Dev nD) (t : Fin cfg0.N) (j f : Fin 1024) :
    w0blk m c t (ix2 j f) = m ((c : Thread nD τ).loc main_arg3) (ix2 f j) := by
  unfold w0blk iblk
  rw [View.read_apply]
  show V m c main_v1 _ = _
  refine Eq.trans (congrArg (V m c main_v1) ?_) (V_w0_apply m c j f)
  funext a
  apply Fin.ext
  match a with
  | ⟨0, _⟩ =>
    show win0_3.index t 0 * 1024 + 1 * j.val = j.val
    rw [(weightWin_index t).1.1]; omega
  | ⟨1, _⟩ =>
    show win0_3.index t 1 * 1024 + 1 * f.val = f.val
    rw [(weightWin_index t).1.2]; omega

/-- Entry (j, f) of the second weight array as the region finds it is entry (f, j) of the launched matrix. -/
theorem V_w1_apply (c : Dev nD) (j f : Fin 1024) :
    (V m c main_v3 : S1024x1024.Idx → EReal) (ix2 j f) = m ((c : Thread nD τ).loc main_arg5) (ix2 f j) := by
  have e : @Eq (FVec Ideal S1024x1024 .bf16) (V m c main_v3)
      (truncf .bf16 (transpose S1024x1024 [1, 0] (m ((c : Thread nD τ).loc main_arg5)) transposes_S1024x1024_S1024x1024_1_0) bitsLt_bf16_f32) := by
    show StableHlo.after hostOps0 (fun b => m (c, b)) (Proc.devRef .tc main_v3) = _
    after_results
  rw [e]
  exact transpose_ix2_apply _ _ j f

/-- The second weight block is the whole array: the launched matrix transposed. -/
theorem w1blk_apply (c : Dev nD) (t : Fin cfg0.N) (j f : Fin 1024) :
    w1blk m c t (ix2 j f) = m ((c : Thread nD τ).loc main_arg5) (ix2 f j) := by
  unfold w1blk iblk
  rw [View.read_apply]
  show V m c main_v3 _ = _
  refine Eq.trans (congrArg (V m c main_v3) ?_) (V_w1_apply m c j f)
  funext a
  apply Fin.ext
  match a with
  | ⟨0, _⟩ =>
    show win0_5.index t 0 * 1024 + 1 * j.val = j.val
    rw [(weightWin_index t).2.1.1]; omega
  | ⟨1, _⟩ =>
    show win0_5.index t 1 * 1024 + 1 * f.val = f.val
    rw [(weightWin_index t).2.1.2]; omega

/-- Entry (j, f) of the third weight array as the region finds it is entry (f, j) of the launched matrix. -/
theorem V_wa_apply (c : Dev nD) (j f : Fin 1024) :
    (V m c main_v5 : S1024x1024.Idx → EReal) (ix2 j f) = m ((c : Thread nD τ).loc main_arg7) (ix2 f j) := by
  have e : @Eq (FVec Ideal S1024x1024 .bf16) (V m c main_v5)
      (truncf .bf16 (transpose S1024x1024 [1, 0] (m ((c : Thread nD τ).loc main_arg7)) transposes_S1024x1024_S1024x1024_1_0) bitsLt_bf16_f32) := by
    show StableHlo.after hostOps0 (fun b => m (c, b)) (Proc.devRef .tc main_v5) = _
    after_results
  rw [e]
  exact transpose_ix2_apply _ _ j f

/-- The third weight block is the whole array: the launched matrix transposed. -/
theorem wablk_apply (c : Dev nD) (t : Fin cfg0.N) (j f : Fin 1024) :
    wablk m c t (ix2 j f) = m ((c : Thread nD τ).loc main_arg7) (ix2 f j) := by
  unfold wablk iblk
  rw [View.read_apply]
  show V m c main_v5 _ = _
  refine Eq.trans (congrArg (V m c main_v5) ?_) (V_wa_apply m c j f)
  funext a
  apply Fin.ext
  match a with
  | ⟨0, _⟩ =>
    show win0_7.index t 0 * 1024 + 1 * j.val = j.val
    rw [(weightWin_index t).2.2.1]; omega
  | ⟨1, _⟩ =>
    show win0_7.index t 1 * 1024 + 1 * f.val = f.val
    rw [(weightWin_index t).2.2.2]; omega

/-! ## The bias blocks: the launched bias vectors as one-row arrays -/

/-- Entry (0, f) of the first bias row as the region finds it is entry f of the launched bias vector. -/
theorem V_b0_apply (c : Dev nD) (f : Fin 1024) :
    (V m c main_v6 : S1x1024.Idx → EReal) (ix2 (0 : Fin 1) f) = m ((c : Thread nD τ).loc main_arg4) (ix1 f) := by
  have e : @Eq (FVec Ideal S1x1024 .f32) (V m c main_v6)
      (shapeCast S1x1024 (m ((c : Thread nD τ).loc main_arg4)) shapeCasts_S1024_S1x1024) := by
    show StableHlo.after hostOps0 (fun b => m (c, b)) (Proc.devRef .tc main_v6) = _
    after_results <;> rfl
  rw [e]
  exact shapeCast_a_1a_apply _ _ (0 : Fin 1) f

/-- The first bias block is the whole row. -/
theorem b0blk_apply (c : Dev nD) (t : Fin cfg0.N) (f : Fin 1024) :
    b0blk m c t (ix2 (0 : Fin 1) f) = m ((c : Thread nD τ).loc main_arg4) (ix1 f) := by
  unfold b0blk iblk
  rw [View.read_apply]
  show V m c main_v6 _ = _
  refine Eq.trans (congrArg (V m c main_v6) ?_) (V_b0_apply m c f)
  funext a
  apply Fin.ext
  match a with
  | ⟨0, _⟩ =>
    show win0_4.index t 0 * 1 + 1 * 0 = 0
    rw [(biasWin_index t).1.1]
  | ⟨1, _⟩ =>
    show win0_4.index t 1 * 1024 + 1 * f.val = f.val
    rw [(biasWin_index t).1.2]; omega

/-- Entry (0, f) of the second bias row as the region finds it is entry f of the launched bias vector. -/
theorem V_b1_apply (c : Dev nD) (f : Fin 1024) :
    (V m c main_v7 : S1x1024.Idx → EReal) (ix2 (0 : Fin 1) f) = m ((c : Thread nD τ).loc main_arg6) (ix1 f) := by
  have e : @Eq (FVec Ideal S1x1024 .f32) (V m c main_v7)
      (shapeCast S1x1024 (m ((c : Thread nD τ).loc main_arg6)) shapeCasts_S1024_S1x1024) := by
    show StableHlo.after hostOps0 (fun b => m (c, b)) (Proc.devRef .tc main_v7) = _
    after_results <;> rfl
  rw [e]
  exact shapeCast_a_1a_apply _ _ (0 : Fin 1) f

/-- The second bias block is the whole row. -/
theorem b1blk_apply (c : Dev nD) (t : Fin cfg0.N) (f : Fin 1024) :
    b1blk m c t (ix2 (0 : Fin 1) f) = m ((c : Thread nD τ).loc main_arg6) (ix1 f) := by
  unfold b1blk iblk
  rw [View.read_apply]
  show V m c main_v7 _ = _
  refine Eq.trans (congrArg (V m c main_v7) ?_) (V_b1_apply m c f)
  funext a
  apply Fin.ext
  match a with
  | ⟨0, _⟩ =>
    show win0_6.index t 0 * 1 + 1 * 0 = 0
    rw [(biasWin_index t).2.1.1]
  | ⟨1, _⟩ =>
    show win0_6.index t 1 * 1024 + 1 * f.val = f.val
    rw [(biasWin_index t).2.1.2]; omega

/-- Entry (0, f) of the third bias row as the region finds it is entry f of the launched bias vector. -/
theorem V_ba_apply (c : Dev nD) (f : Fin 1024) :
    (V m c main_v8 : S1x1024.Idx → EReal) (ix2 (0 : Fin 1) f) = m ((c : Thread nD τ).loc main_arg8) (ix1 f) := by
  have e : @Eq (FVec Ideal S1x1024 .f32) (V m c main_v8)
      (shapeCast S1x1024 (m ((c : Thread nD τ).loc main_arg8)) shapeCasts_S1024_S1x1024) := by
    show StableHlo.after hostOps0 (fun b => m (c, b)) (Proc.devRef .tc main_v8) = _
    after_results <;> rfl
  rw [e]
  exact shapeCast_a_1a_apply _ _ (0 : Fin 1) f

/-- The third bias block is the whole row. -/
theorem bablk_apply (c : Dev nD) (t : Fin cfg0.N) (f : Fin 1024) :
    bablk m c t (ix2 (0 : Fin 1) f) = m ((c : Thread nD τ).loc main_arg8) (ix1 f) := by
  unfold bablk iblk
  rw [View.read_apply]
  show V m c main_v8 _ = _
  refine Eq.trans (congrArg (V m c main_v8) ?_) (V_ba_apply m c f)
  funext a
  apply Fin.ext
  match a with
  | ⟨0, _⟩ =>
    show win0_8.index t 0 * 1 + 1 * 0 = 0
    rw [(biasWin_index t).2.2.1]
  | ⟨1, _⟩ =>
    show win0_8.index t 1 * 1024 + 1 * f.val = f.val
    rw [(biasWin_index t).2.2.2]; omega

/-! ## The tile's energies and value rows -/

/-- The tile's energies are the whole array's energies at the tile's rows. -/
theorem tileE_blocks (c : Dev nD) (t : Fin cfg0.N) (r : Fin 512) :
    tileE (qblk m c t) (kblk m c t) (w0blk m c t) (b0blk m c t) (w1blk m c t) (b1blk m c t) (wablk m c t) (bablk m c t) r
      = Em m c (row t.val r) := by
  unfold tileE Em Eof
  simp only [qblk_apply, kblk_apply, w0blk_apply, b0blk_apply, w1blk_apply, b1blk_apply, wablk_apply, bablk_apply]

/-- The value block's rows are the value array's rows at the tile's rows. -/
theorem vblk_apply (c : Dev nD) (t : Fin cfg0.N) (r : Fin 512) (f : Fin 1024) :
    vblk m c t (ix2 r f) = Vm m c (row t.val r) f :=
  vblk_arg m c t r f

end Cert.KernelIdeal.Attn

end
-- ==== Proof.Fold.lean ====
/-
  What the three output blocks hold after each grid point is the online-softmax state of the specification after that
  many tiles: by induction on the point. A point that starts a half (a multiple of 64) steps from the empty state, which
  the reset has just stored; every other point steps from what the point before left.
-/
import proofs.«152375_j14955076125142_1_alg».proof.Proof.Pieces
import proofs.«152375_j14955076125142_1_alg».proof.Proof.Blocks

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn

/-- A point that does not start a half: the three blocks after the body are one step from the three blocks before. -/
theorem outsB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : ¬cond0_0 i) (x0 : Vec Ideal S512x1024 .f32) (x1 : Vec Ideal S512x1024 .f32) (x2 : Vec Ideal S512x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) (xo9 : Vec Ideal S1x1x1 .f32) (xo10 : Vec Ideal S1x1x1 .f32) (xo11 : Vec Ideal S1x1x1024 .f32) :
    (out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11, out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11, out0_B_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xo9 xo10 xo11)
      = toOuts ((ofOuts (xo9, xo10, xo11)).step (tileE x0 x1 x3 x4 x5 x6 x7 x8) (fun r f => x2 (ix2 r f))) := by
  rw [outB9, outB10, outB11]
  exact pay_step x0 x1 x2 x3 x4 x5 x6 x7 x8 xo9 xo10 xo11

/-- A point that starts a half: one step from the empty state. -/
theorem outsA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1024 .f32) (harg13 : arg13.IsWhole) (hc0 : cond0_0 i) (x0 : Vec Ideal S512x1024 .f32) (x1 : Vec Ideal S512x1024 .f32) (x2 : Vec Ideal S512x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) :
    (out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8, out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8, out0_A_11 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)
      = toOuts (St.init.step (tileE x0 x1 x3 x4 x5 x6 x7 x8) (fun r f => x2 (ix2 r f))) := by
  rw [outA9, outA10, outA11]
  refine (pay_step x0 x1 x2 x3 x4 x5 x6 x7 x8 (k0_pay2 (F := Ideal)) (k0_pay3 (F := Ideal)) (k0_pay4 (F := Ideal))).trans ?_
  rw [ofOuts_reset]

variable (m : (ℓ : Loc nD τ sig) → Buf (Elt Ideal) ℓ)

/-- The tiles' energies and value rows, tile by tile, from the launch contents. -/
abbrev eT (c : Dev nD) : ℕ → Fin 512 → EReal := fun t r => Em m c (row t r)
abbrev vT (c : Dev nD) : ℕ → Fin 512 → Fin 1024 → EReal := fun t r => Vm m c (row t r)

theorem tile_funext (c : Dev nD) (t : Fin cfg0.N) :
    tileE (qblk m c t) (kblk m c t) (w0blk m c t) (b0blk m c t) (w1blk m c t) (b1blk m c t) (wablk m c t) (bablk m c t) = eT m c t.val :=
  funext fun r => tileE_blocks m c t r

theorem vrows_funext (c : Dev nD) (t : Fin cfg0.N) : (fun (r : Fin 512) (f : Fin 1024) => vblk m c t (ix2 r f)) = vT m c t.val :=
  funext fun r => funext fun f => vblk_apply m c t r f

/-- After point `n` the three blocks hold the state after tile `n`. -/
theorem outsAt_eq (c : Dev nD) : ∀ (n : ℕ) (h : n < cfg0.N), outsAt0 m c n h = toOuts (chain (eT m c) (vT m c) n)
  | 0, h => by
    let t : Fin cfg0.N := ⟨0, h⟩
    refine (outsAt0_A m c t rfl).trans ?_
    refine (outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr rfl) (qblk m c t) (kblk m c t) (vblk m c t) (w0blk m c t) (b0blk m c t) (w1blk m c t) (b1blk m c t) (wablk m c t) (bablk m c t)).trans ?_
    rw [tile_funext m c t, vrows_funext m c t]
    rfl
  | n + 1, h => by
    let t : Fin cfg0.N := ⟨n + 1, h⟩
    by_cases h0 : (n + 1) % 64 = 0
    · refine (outsAt0_A m c t h0).trans ?_
      refine (outsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) ((hcond0_0 t).mpr h0) (qblk m c t) (kblk m c t) (vblk m c t) (w0blk m c t) (b0blk m c t) (w1blk m c t) (b1blk m c t) (wablk m c t) (bablk m c t)).trans ?_
      rw [tile_funext m c t, vrows_funext m c t]
      show _ = toOuts (if (n + 1) % 64 = 0 then _ else _)
      rw [if_pos h0]
    · refine (outsAt0_B m c t h0).trans ?_
      refine (outsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (fun hh => h0 ((hcond0_0 t).mp hh)) (qblk m c t) (kblk m c t) (vblk m c t) (w0blk m c t) (b0blk m c t) (w1blk m c t) (b1blk m c t) (wablk m c t) (bablk m c t)
        (outsAt0 m c (t.val - 1) (Nat.lt_of_le_of_lt (Nat.sub_le _ _) t.isLt)).1
        (outsAt0 m c (t.val - 1) (Nat.lt_of_le_of_lt (Nat.sub_le _ _) t.isLt)).2.1
        (outsAt0 m c (t.val - 1) (Nat.lt_of_le_of_lt (Nat.sub_le _ _) t.isLt)).2.2).trans ?_
      rw [tile_funext m c t, vrows_funext m c t]
      have ih := outsAt_eq c n (Nat.lt_of_succ_lt h)
      show toOuts ((ofOuts (outsAt0 m c n _)).step _ _) = toOuts (if (n + 1) % 64 = 0 then _ else _)
      rw [if_neg h0, ih, ofOuts_toOuts]

end Cert.KernelIdeal.Attn

end
-- ==== Proof.Arrays.lean ====
/-
  The three output arrays after the run: half `p` of the rows writes its state back once, after its last tile (point
  64 p + 63), into block `p`; the two blocks tile each array. So entry p of the first two arrays is the shift and the
  sum of half p, and row p of the third its weighted value sum.
-/
import proofs.«152375_j14955076125142_1_alg».proof.Proof.Fold

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn
open Idealize.ShloMosaic.Pipeline (Dat)

variable (m : (ℓ : Loc nD τ sig) → Buf (Elt Ideal) ℓ)

/-- The state of half `p` after its last tile. -/
abbrev halfSt (c : Dev nD) (p : Fin 2) : St := chain (eT m c) (vT m c) (64 * p.val + 63)

/-- The three arrays as functions of the two halves' states. -/
abbrev arrM (c : Dev nD) : Buf (Elt Ideal) ((c : Thread nD τ).loc main_v9_0) := fun i => (halfSt m c ⟨(i 0).val, (i 0).isLt⟩).m
abbrev arrL (c : Dev nD) : Buf (Elt Ideal) ((c : Thread nD τ).loc main_v9_1) := fun i => (halfSt m c ⟨(i 0).val, (i 0).isLt⟩).l
abbrev arrA (c : Dev nD) : Buf (Elt Ideal) ((c : Thread nD τ).loc main_v9_2) :=
  fun i => (halfSt m c ⟨(i 0).val, (i 0).isLt⟩).acc ⟨(i 2).val, (i 2).isLt⟩

/-- The output windows' block index is the half, at every point; a write-back happens at the last point of a half. -/
theorem out_idx : ∀ t : Fin cfg0.N,
    win0_9.index t (0 : Fin 3) = t.val / 64 ∧ win0_9.index t (1 : Fin 3) = 0 ∧ win0_9.index t (2 : Fin 3) = 0
    ∧ win0_10.index t (0 : Fin 3) = t.val / 64 ∧ win0_10.index t (1 : Fin 3) = 0 ∧ win0_10.index t (2 : Fin 3) = 0
    ∧ win0_11.index t (0 : Fin 3) = t.val / 64 ∧ win0_11.index t (1 : Fin 3) = 0 ∧ win0_11.index t (2 : Fin 3) = 0 :=
  (by decide +kernel : ∀ t : Fin grid0.N, _)

theorem acc_congr (s s' : St) (a b : Fin 1024) (hs : s = s') (hab : a = b) : s.acc a = s'.acc b := by
  subst hs; subst hab; rfl

theorem flushed9 (c : Dev nD) (t : Fin cfg0.N) (hf : (cfg0.win 9).flush t = true) :
    (dats m 0 c).flushed 9 t = ((cfg0.win 9).blk t).view.read (Elt Ideal) (arrM m c) := by
  have hN : cfg0.N = 128 := N_0
  have h63 : t.val % 64 = 63 := (flush0_9 t).mp hf
  obtain ⟨a0, a1, a2, b0, b1, b2, c0, c1, c2⟩ := out_idx t
  show (cfg0.win 9).cut (grid0.coords t) ((dats m 0 c).after 9 t) = _
  rw [after0_9, outsAt_eq]
  funext y
  rw [View.read_apply]
  have e0 : ((((cfg0.win 9).blk t).view.emb y) 0).val = t.val / 64 := by
    show win0_9.index t (0 : Fin 3) * 1 + 1 * (y 0).val = _
    have hy : (y 0).val < 1 := (y 0).isLt
    omega
  have key : 64 * ((((cfg0.win 9).blk t).view.emb y) 0).val + 63 = t.val := by rw [e0]; omega
  show (chain (eT m c) (vT m c) t.val).m = (chain (eT m c) (vT m c) (64 * ((((cfg0.win 9).blk t).view.emb y) 0).val + 63)).m
  rw [key]

theorem final9 (c : Dev nD) : (dats m 0 c).arrAt 9 cfg0.N = arrM m c :=
  (dats m 0 c).arrAt_eq_of_cover 9 (arrM m c) (flushed9 m c) fun i => by
    have hi0 : (i 0).val < 2 := (i 0).isLt
    have hi1 : (i 1).val < 1 := (i 1).isLt
    have hi2 : (i 2).val < 1 := (i 2).isLt
    have hN : cfg0.N = 128 := N_0
    let t : Fin cfg0.N := ⟨64 * (i 0).val + 63, by rw [hN]; omega⟩
    obtain ⟨a0, a1, a2, b0, b1, b2, c0, c1, c2⟩ := out_idx t
    have ht : t.val = 64 * (i 0).val + 63 := rfl
    refine ⟨t, (flush0_9 t).mpr (by rw [ht]; omega), ?_⟩
    show i ∈ ((View.whole main_v9_0).slice (win0_9.rect t)).set
    rw [View.set_slice_whole, Rect.mem_set_unit]
    intro a
    match a with
    | ⟨0, _⟩ => show win0_9.index t (0 : Fin 3) * 1 ≤ (i 0).val ∧ (i 0).val < win0_9.index t (0 : Fin 3) * 1 + 1
                omega
    | ⟨1, _⟩ => show win0_9.index t (1 : Fin 3) * 1 ≤ (i 1).val ∧ (i 1).val < win0_9.index t (1 : Fin 3) * 1 + 1
                omega
    | ⟨2, _⟩ => show win0_9.index t (2 : Fin 3) * 1 ≤ (i 2).val ∧ (i 2).val < win0_9.index t (2 : Fin 3) * 1 + 1
                omega

theorem flushed10 (c : Dev nD) (t : Fin cfg0.N) (hf : (cfg0.win 10).flush t = true) :
    (dats m 0 c).flushed 10 t = ((cfg0.win 10).blk t).view.read (Elt Ideal) (arrL m c) := by
  have hN : cfg0.N = 128 := N_0
  have h63 : t.val % 64 = 63 := (flush0_10 t).mp hf
  obtain ⟨a0, a1, a2, b0, b1, b2, c0, c1, c2⟩ := out_idx t
  show (cfg0.win 10).cut (grid0.coords t) ((dats m 0 c).after 10 t) = _
  rw [after0_10, outsAt_eq]
  funext y
  rw [View.read_apply]
  have e0 : ((((cfg0.win 10).blk t).view.emb y) 0).val = t.val / 64 := by
    show win0_10.index t (0 : Fin 3) * 1 + 1 * (y 0).val = _
    have hy : (y 0).val < 1 := (y 0).isLt
    omega
  have key : 64 * ((((cfg0.win 10).blk t).view.emb y) 0).val + 63 = t.val := by rw [e0]; omega
  show (chain (eT m c) (vT m c) t.val).l = (chain (eT m c) (vT m c) (64 * ((((cfg0.win 10).blk t).view.emb y) 0).val + 63)).l
  rw [key]

theorem final10 (c : Dev nD) : (dats m 0 c).arrAt 10 cfg0.N = arrL m c :=
  (dats m 0 c).arrAt_eq_of_cover 10 (arrL m c) (flushed10 m c) fun i => by
    have hi0 : (i 0).val < 2 := (i 0).isLt
    have hi1 : (i 1).val < 1 := (i 1).isLt
    have hi2 : (i 2).val < 1 := (i 2).isLt
    have hN : cfg0.N = 128 := N_0
    let t : Fin cfg0.N := ⟨64 * (i 0).val + 63, by rw [hN]; omega⟩
    obtain ⟨a0, a1, a2, b0, b1, b2, c0, c1, c2⟩ := out_idx t
    have ht : t.val = 64 * (i 0).val + 63 := rfl
    refine ⟨t, (flush0_10 t).mpr (by rw [ht]; omega), ?_⟩
    show i ∈ ((View.whole main_v9_1).slice (win0_10.rect t)).set
    rw [View.set_slice_whole, Rect.mem_set_unit]
    intro a
    match a with
    | ⟨0, _⟩ => show win0_10.index t (0 : Fin 3) * 1 ≤ (i 0).val ∧ (i 0).val < win0_10.index t (0 : Fin 3) * 1 + 1
                omega
    | ⟨1, _⟩ => show win0_10.index t (1 : Fin 3) * 1 ≤ (i 1).val ∧ (i 1).val < win0_10.index t (1 : Fin 3) * 1 + 1
                omega
    | ⟨2, _⟩ => show win0_10.index t (2 : Fin 3) * 1 ≤ (i 2).val ∧ (i 2).val < win0_10.index t (2 : Fin 3) * 1 + 1
                omega

theorem flushed11 (c : Dev nD) (t : Fin cfg0.N) (hf : (cfg0.win 11).flush t = true) :
    (dats m 0 c).flushed 11 t = ((cfg0.win 11).blk t).view.read (Elt Ideal) (arrA m c) := by
  have hN : cfg0.N = 128 := N_0
  have h63 : t.val % 64 = 63 := (flush0_11 t).mp hf
  obtain ⟨a0, a1, a2, b0, b1, b2, c0, c1, c2⟩ := out_idx t
  show (cfg0.win 11).cut (grid0.coords t) ((dats m 0 c).after 11 t) = _
  rw [after0_11, outsAt_eq]
  funext y
  rw [View.read_apply]
  have e0 : ((((cfg0.win 11).blk t).view.emb y) 0).val = t.val / 64 := by
    show win0_11.index t (0 : Fin 3) * 1 + 1 * (y 0).val = _
    have hy : (y 0).val < 1 := (y 0).isLt
    omega
  have key : 64 * ((((cfg0.win 11).blk t).view.emb y) 0).val + 63 = t.val := by rw [e0]; omega
  have e2 : ((((cfg0.win 11).blk t).view.emb y) 2).val = (y 2).val := by
    show win0_11.index t (2 : Fin 3) * 1024 + 1 * (y 2).val = _
    omega
  show (chain (eT m c) (vT m c) t.val).acc ⟨(y 2).val, _⟩
    = (chain (eT m c) (vT m c) (64 * ((((cfg0.win 11).blk t).view.emb y) 0).val + 63)).acc ⟨((((cfg0.win 11).blk t).view.emb y) 2).val, _⟩
  exact acc_congr _ _ _ _ (congrArg (chain (eT m c) (vT m c)) key.symm) (Fin.ext e2.symm)

theorem final11 (c : Dev nD) : (dats m 0 c).arrAt 11 cfg0.N = arrA m c :=
  (dats m 0 c).arrAt_eq_of_cover 11 (arrA m c) (flushed11 m c) fun i => by
    have hi0 : (i 0).val < 2 := (i 0).isLt
    have hi1 : (i 1).val < 1 := (i 1).isLt
    have hi2 : (i 2).val < 1024 := (i 2).isLt
    have hN : cfg0.N = 128 := N_0
    let t : Fin cfg0.N := ⟨64 * (i 0).val + 63, by rw [hN]; omega⟩
    obtain ⟨a0, a1, a2, b0, b1, b2, c0, c1, c2⟩ := out_idx t
    have ht : t.val = 64 * (i 0).val + 63 := rfl
    refine ⟨t, (flush0_11 t).mpr (by rw [ht]; omega), ?_⟩
    show i ∈ ((View.whole main_v9_2).slice (win0_11.rect t)).set
    rw [View.set_slice_whole, Rect.mem_set_unit]
    intro a
    match a with
    | ⟨0, _⟩ => show win0_11.index t (0 : Fin 3) * 1 ≤ (i 0).val ∧ (i 0).val < win0_11.index t (0 : Fin 3) * 1 + 1
                omega
    | ⟨1, _⟩ => show win0_11.index t (1 : Fin 3) * 1 ≤ (i 1).val ∧ (i 1).val < win0_11.index t (1 : Fin 3) * 1 + 1
                omega
    | ⟨2, _⟩ => show win0_11.index t (2 : Fin 3) * 1024 ≤ (i 2).val ∧ (i 2).val < win0_11.index t (2 : Fin 3) * 1024 + 1024
                omega

end Cert.KernelIdeal.Attn

end
-- ==== Proof.TailOps.lean ====
/-
  The host lines after the region, as one term of the three output arrays: the two halves' shifts are reduced to their
  maximum, each half is rescaled by exp(shift - maximum), the rescaled sums and weighted value sums are added over the
  two halves, and the quotient is laid out as a [1, 1024] row. Read at (0, f) it is the specification's merge of the two
  states the arrays hold.
-/
import proofs.«152375_j14955076125142_1_alg».proof.Proof.Gen.KernelIdeal
import proofs.«152375_j14955076125142_1_alg».proof.Proof.Spec
import Idealize.ShloMosaic.Lib.ValueIdx
import Idealize.ShloMosaic.Lib.ValueIdxRank1
import Mathlib.Data.Finset.Fold
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Facts₀ Cert.Attn

/-- Each half's rescaling factor: exp(its shift - the larger shift). -/
def tailScale (a9 : FVec Ideal S2x1x1 .f32) : FVec Ideal S2 .f32 :=
  Host.exp
    (subf (fun i => shapeCast S2 a9 shapeCasts_S2x1x1_S2 i)
      (broadcastInDim S2 ![] bcast_S_S2
        (Host.reduce FloatOps.maximumf (fun i => shapeCast S2 a9 shapeCasts_S2x1x1_S2 i)
          (constant S_ .f32 0xFF800000#32) reducesTo_S2_S_d0 h_S_)))

/-- The lines after the region, from the three output arrays to the result. -/
def tailTerm (a9 a10 : FVec Ideal S2x1x1 .f32) (a11 : FVec Ideal S2x1x1024 .f32) : FVec Ideal S1x1024 .f32 :=
  broadcastInDim S1x1024 ![1] bcast_S1024_S1x1024_1
    (Host.divf
      (Host.reduceAdd
        (mulf (broadcastInDim S2x1024 ![0, 1] bcast_S2x1_S2x1024_0_1 (broadcastInDim S2x1 ![0] bcast_S2_S2x1_0 (tailScale a9)))
          (fun i => shapeCast S2x1024 a11 shapeCasts_S2x1x1024_S2x1024 i))
        (constant S_ .f32 0x00000000#32) reducesTo_S2x1024_S1024_d0 h_S_)
      (broadcastInDim S1024 ![] bcast_S_S1024
        (Host.reduceAdd (mulf (tailScale a9) (fun i => shapeCast S2 a10 shapeCasts_S2x1x1_S2 i))
          (constant S_ .f32 0x00000000#32) reducesTo_S2_S_d0 h_S_)))

/-- The pattern 0xFF800000 is -∞. -/
theorem negInf_word : Ideal.ofBits .f32 0xFF800000#32 = (⊥ : EReal) := by simp [Ideal.ofBits, Ideal.ieee]

/-- A [2, 1, 1] array laid out as [2] reads, at p, its entry (p, 0, 0). -/
theorem flat2_apply (a : FVec Ideal S2x1x1 .f32) (p : Fin 2) :
    shapeCast S2 a shapeCasts_S2x1x1_S2 (ix1 p) = a (ix3 p 0 0) :=
  shapeCast_apply a _ _ _ (by
    rw [Shape.rowMajor_val_three, Shape.rowMajor_val_one]
    show (p.val * 1 + 0) * 1 + 0 = p.val
    omega)

/-- A [2, 1, 1024] array laid out as [2, 1024] reads, at (p, g), its entry (p, 0, g). -/
theorem flat2x1024_apply (a : FVec Ideal S2x1x1024 .f32) (p : Fin 2) (g : Fin 1024) :
    shapeCast S2x1024 a shapeCasts_S2x1x1024_S2x1024 (ix2 p g) = a (ix3 p 0 g) :=
  shapeCast_apply a _ _ _ (by
    rw [Shape.rowMajor_val_three, Shape.rowMajor_val_two]
    show (p.val * 1 + 0) * 1024 + g.val = p.val * 1024 + g.val
    omega)

/-- Feature g with half p put back in front is (p, g). -/
theorem half_into_row (h : S2x1024.Reduces [0] S1024) (g : Fin 1024) (p : Fin 2) : h.lift (ix1 g) p = ix2 p g := by
  funext c; apply Fin.ext
  fin_cases c <;> rfl

/-- The host's exponential at an index is the exponential of the entry. -/
theorem hostExp_apply {s : Shape} {φ : FTy} (x : FVec Ideal s φ) (i : s.Idx) : Host.exp x i = Ideal.exp (x i) := rfl

/-- The larger of the two halves' shifts: the fold of max from -∞. -/
theorem shiftMax_eq (a9 : FVec Ideal S2x1x1 .f32) :
    Host.reduce FloatOps.maximumf (fun i => shapeCast S2 a9 shapeCasts_S2x1x1_S2 i)
        (constant S_ .f32 0xFF800000#32) reducesTo_S2_S_d0 h_S_ ix0
      = (Finset.univ : Finset (Fin 2)).fold max ⊥ (fun p => a9 (ix3 p 0 0)) := by
  rw [Host.reduce_eq_fold FloatOps.maximumf _ _ reducesTo_S2_S_d0 h_S_]
  rw [Finset.filter_true_of_mem (fun i _ => (eq_ix0 _).trans (eq_ix0 _).symm)]
  show (Finset.univ : Finset S2.Idx).fold max (Ideal.ofBits .f32 0xFF800000#32) _ = _
  rw [negInf_word, ← Finset.map_univ_equiv (idxEquiv1 (n := 2)).symm, Finset.fold_map]
  refine Finset.fold_congr fun p _ => ?_
  exact flat2_apply a9 p

/-- Half p's rescaling factor is exp(its shift - the larger shift). -/
theorem tailScale_apply (a9 : FVec Ideal S2x1x1 .f32) (p : Fin 2) :
    tailScale a9 (ix1 p)
      = Ideal.exp (a9 (ix3 p 0 0) - (Finset.univ : Finset (Fin 2)).fold max ⊥ (fun p => a9 (ix3 p 0 0))) := by
  unfold tailScale
  rw [hostExp_apply, subf_apply, broadcastInDim_scalar_apply, shiftMax_eq]
  show Ideal.exp (shapeCast S2 a9 shapeCasts_S2x1x1_S2 (ix1 p) - _) = _
  rw [flat2_apply]

/-- A [2] vector spread along the features reads, at (p, g), its entry p. -/
theorem spread_apply (v : FVec Ideal S2 .f32) (p : Fin 2) (g : Fin 1024) :
    broadcastInDim S2x1024 ![0, 1] bcast_S2x1_S2x1024_0_1 (broadcastInDim S2x1 ![0] bcast_S2_S2x1_0 v) (ix2 p g)
      = v (ix1 p) := by
  rw [broadcastInDim_apply _ bcast_S2x1_S2x1024_0_1 _ (ix2 p g) (ix2 p (0 : Fin 1)) (by
    intro a
    fin_cases a
    · show p.val = if (2 : Nat) = 1 then 0 else p.val
      rw [if_neg (by decide)]
    · show 0 = if (1 : Nat) = 1 then 0 else g.val
      rw [if_pos rfl])]
  exact broadcastInDim_apply _ bcast_S2_S2x1_0 v (ix2 p 0) (ix1 p) (by
    intro a
    fin_cases a
    show p.val = if (2 : Nat) = 1 then 0 else p.val
    rw [if_neg (by decide)])

/-- A [1024] vector laid out as a [1, 1024] row reads, at (0, g), its entry g. -/
theorem asRow_apply (w : FVec Ideal S1024 .f32) (g : Fin 1024) :
    broadcastInDim S1x1024 ![1] bcast_S1024_S1x1024_1 w (ix2 0 g) = w (ix1 g) :=
  broadcastInDim_apply _ bcast_S1024_S1x1024_1 w (ix2 0 g) (ix1 g) (by
    intro a
    fin_cases a
    show g.val = if (1024 : Nat) = 1 then 0 else g.val
    rw [if_neg (by decide)])

/-- The rescaled sums added over the two halves. -/
theorem den_apply (a9 a10 : FVec Ideal S2x1x1 .f32) :
    Host.reduceAdd (mulf (tailScale a9) (fun i => shapeCast S2 a10 shapeCasts_S2x1x1_S2 i))
        (constant S_ .f32 0x00000000#32) reducesTo_S2_S_d0 h_S_ ix0
      = 0 + ∑ p : Fin 2, tailScale a9 (ix1 p) * a10 (ix3 p 0 0) := by
  rw [hostReduceAdd_apply, Ideal.hostReduceAdd_total reducesTo_S2_S_d0 (fun b => b.elim0)]
  show Ideal.ofBits .f32 0x00000000#32 + ∑ i : S2.Idx, _ = _
  rw [Ideal.ofBits_zero_f32, ← Equiv.sum_comp (idxEquiv1 (n := 2)).symm]
  congr 1
  refine Finset.sum_congr rfl fun p _ => ?_
  show tailScale a9 (ix1 p) * shapeCast S2 a10 shapeCasts_S2x1x1_S2 (ix1 p) = _
  rw [flat2_apply]

/-- The rescaled weighted value sums added over the two halves, at feature g. -/
theorem num_apply (a9 : FVec Ideal S2x1x1 .f32) (a11 : FVec Ideal S2x1x1024 .f32) (g : Fin 1024) :
    Host.reduceAdd
        (mulf (broadcastInDim S2x1024 ![0, 1] bcast_S2x1_S2x1024_0_1 (broadcastInDim S2x1 ![0] bcast_S2_S2x1_0 (tailScale a9)))
          (fun i => shapeCast S2x1024 a11 shapeCasts_S2x1x1024_S2x1024 i))
        (constant S_ .f32 0x00000000#32) reducesTo_S2x1024_S1024_d0 h_S_ (ix1 g)
      = 0 + ∑ p : Fin 2, tailScale a9 (ix1 p) * a11 (ix3 p 0 g) := by
  rw [hostReduceAdd_apply, Ideal.hostReduceAdd_single reducesTo_S2x1024_S1024_d0 (by decide : S2x1024.Reduces [0] S1024)]
  show Ideal.ofBits .f32 0x00000000#32 + ∑ p : Fin 2, _ = _
  rw [Ideal.ofBits_zero_f32]
  congr 1
  refine Finset.sum_congr rfl fun p _ => ?_
  rw [half_into_row]
  show broadcastInDim S2x1024 ![0, 1] bcast_S2x1_S2x1024_0_1 (broadcastInDim S2x1 ![0] bcast_S2_S2x1_0 (tailScale a9)) (ix2 p g)
      * shapeCast S2x1024 a11 shapeCasts_S2x1x1024_S2x1024 (ix2 p g) = _
  rw [spread_apply, flat2x1024_apply]

/-- The result at (0, f) is the merge of the two states the arrays hold. -/
theorem tailTerm_apply (a9 a10 : FVec Ideal S2x1x1 .f32) (a11 : FVec Ideal S2x1x1024 .f32) (f : Fin 1024) :
    tailTerm a9 a10 a11 (ix2 0 f)
      = merge (fun p => ⟨a9 (ix3 p 0 0), a10 (ix3 p 0 0), fun g => a11 (ix3 p 0 g)⟩) f := by
  unfold tailTerm
  rw [asRow_apply, hostDivf_apply, broadcastInDim_scalar_apply, num_apply, den_apply]
  simp only [tailScale_apply]
  rfl

end Cert.KernelIdeal.Attn

end
-- ==== Proof.KernelRun.lean ====
/-
  The whole idealized kernel program, run: the region leaves the two halves' states in its three output arrays, the
  host lines after it merge them, and the arguments end as launched. So the result buffer ends at the tail term of the
  three arrays, which at (0, f) is the specification's merge of the two halves.
-/
import proofs.«152375_j14955076125142_1_alg».proof.Proof.Arrays
import proofs.«152375_j14955076125142_1_alg».proof.Proof.TailOps
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.Attn

open Cert.KernelIdeal Cert.KernelIdeal.Gen Cert.Attn
open Idealize.ShloMosaic.Pipeline (Dat)

variable (m : (ℓ : Loc nD τ sig) → Buf (Elt Ideal) ℓ) (ρ : Dev nD → PrngReg)

/-- The lines after the region read the three output arrays where the region left them. -/
theorem arr9 (c : Dev nD) :
    Pipeline.withArrays (cfgs 0).spec c (V0 m c) (fun w => (dats m 0 c).arrAt w (cfgs 0).N) (Proc.devRef .tc main_v9_0) = arrM m c :=
  (Pipeline.withArrays_arr spec0 launch0.win.arr_inj c _ _ 9).trans (final9 m c)
theorem arr10 (c : Dev nD) :
    Pipeline.withArrays (cfgs 0).spec c (V0 m c) (fun w => (dats m 0 c).arrAt w (cfgs 0).N) (Proc.devRef .tc main_v9_1) = arrL m c :=
  (Pipeline.withArrays_arr spec0 launch0.win.arr_inj c _ _ 10).trans (final10 m c)
theorem arr11 (c : Dev nD) :
    Pipeline.withArrays (cfgs 0).spec c (V0 m c) (fun w => (dats m 0 c).arrAt w (cfgs 0).N) (Proc.devRef .tc main_v9_2) = arrA m c :=
  (Pipeline.withArrays_arr spec0 launch0.win.arr_inj c _ _ 11).trans (final11 m c)

set_option maxHeartbeats 2000000 in
/-- The result buffer after the host lines: the tail term of the three arrays. -/
theorem tail_read (c : Dev nD) :
    Pipeline.afterTail₀ cfgs (dats m) 0 (V0 m) [hostOps1] c main_v25 = tailTerm (arrM m c) (arrL m c) (arrA m c) := by
  unfold Pipeline.afterTail₀
  show StableHlo.after hostOps1 _ (Proc.devRef .tc main_v25) = _
  after_results_simp
  rw [arr9 m c, arr10 m c, arr11 m c]
  rfl

/-- The run, read: the result at the tail term, the nine arguments as launched. -/
theorem run : θ_run defs (onTc (τ := τ) (main (F := Ideal))) ⟨m, fun _ => 0, ρ⟩ fun r => ∀ c : Dev nD,
      r.2.mem ((c.tc : Thread nD τ).loc main_v25) = tailTerm (arrM m c) (arrL m c) (arrA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v25 (Pipeline.mem_restRefs_of main_v25 (by decide) (by decide))).trans (tail_read m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

/-- The result at (0, f): the merge of the two halves' final states. -/
theorem result_apply (c : Dev nD) (f : Fin 1024) :
    tailTerm (arrM m c) (arrL m c) (arrA m c) (ix2 0 f) = merge (fun p => halfSt m c p) f := by
  rw [tailTerm_apply]
  rfl

end Cert.KernelIdeal.Attn

end
-- ==== Proof.Softmax.lean ====
/-
  The online softmax, folded tile by tile over each half of the rows and merged, is the direct softmax-weighted sum,
  when every energy and every value is a real number and the direct form's shift is real.
-/
import proofs.«152375_j14955076125142_1_alg».proof.Proof.Spec
import Mathlib.Analysis.SpecialFunctions.Exp
import Mathlib.Data.Finset.Fold
import Mathlib.Algebra.BigOperators.Fin
import Mathlib.Algebra.BigOperators.Intervals
import Mathlib.Logic.Equiv.Fin.Basic

noncomputable section

open scoped BigOperators

namespace Cert.Attn

open Idealize.ShloMosaic

/-- The fold of `max` from -∞ over a nonempty finite family of real numbers is a real number. -/
theorem fold_max_isReal {ι : Type} [Fintype ι] [Nonempty ι] (e : ι → EReal) (he : ∀ i, IsReal (e i)) :
    IsReal ((Finset.univ : Finset ι).fold max ⊥ e) := by
  have h1 : (Finset.univ : Finset ι).fold max ⊥ e < ⊤ := by
    rw [Finset.fold_max_lt]
    refine ⟨bot_lt_top, fun i _ => ?_⟩
    obtain ⟨r, hr⟩ := he i
    rw [hr]; exact EReal.coe_lt_top r
  have h2 : ⊥ < (Finset.univ : Finset ι).fold max ⊥ e := by
    rw [Finset.lt_fold_max]
    right
    obtain ⟨i⟩ := ‹Nonempty ι›
    obtain ⟨r, hr⟩ := he i
    exact ⟨i, Finset.mem_univ i, by rw [hr]; exact EReal.bot_lt_coe r⟩
  exact ⟨_, (EReal.coe_toReal h1.ne h2.ne').symm⟩

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a difference of two real numbers. -/
theorem exp_coe_sub (x y : ℝ) : Ideal.exp ((x : EReal) - (y : EReal)) = ((Real.exp (x - y) : ℝ) : EReal) := by
  rw [← EReal.coe_sub]; rfl

/-- A tile's sum of exponentials at shift `M`. -/
def tL (e : Fin 512 → ℝ) (M : ℝ) : ℝ := ∑ r, Real.exp (e r - M)

/-- A tile's sum of exponentials times values at shift `M`, feature `f`. -/
def tA (e : Fin 512 → ℝ) (v : Fin 512 → Fin 1024 → ℝ) (M : ℝ) (f : Fin 1024) : ℝ :=
  ∑ r, Real.exp (e r - M) * v r f

/-- Changing the shift from `M` to `M'` multiplies by exp(M - M'). -/
theorem tL_rescale (e : Fin 512 → ℝ) (M M' : ℝ) : Real.exp (M - M') * tL e M = tL e M' := by
  unfold tL
  rw [Finset.mul_sum]
  refine Finset.sum_congr rfl fun r _ => ?_
  rw [← Real.exp_add]; congr 1; ring

theorem tA_rescale (e : Fin 512 → ℝ) (v : Fin 512 → Fin 1024 → ℝ) (M M' : ℝ) (f : Fin 1024) :
    Real.exp (M - M') * tA e v M f = tA e v M' f := by
  unfold tA
  rw [Finset.mul_sum]
  refine Finset.sum_congr rfl fun r _ => ?_
  rw [← mul_assoc, ← Real.exp_add]; congr 2; ring

/-- One step of the online form on real data, given the new shift `M'` and the rescaling factor `c` as reals. -/
theorem step_core (s : St) (e : Fin 512 → ℝ) (v : Fin 512 → Fin 1024 → ℝ) (M' c l : ℝ) (a : Fin 1024 → ℝ)
    (hm : max s.m ((Finset.univ : Finset (Fin 512)).fold max ⊥ (fun r => (e r : EReal))) = (M' : EReal))
    (hc : Ideal.exp (s.m - (M' : EReal)) = (c : EReal))
    (hl : s.l = (l : EReal)) (ha : ∀ f, s.acc f = (a f : EReal)) :
    (s.step (fun r => (e r : EReal)) (fun r f => (v r f : EReal))).m = (M' : EReal) ∧
    (s.step (fun r => (e r : EReal)) (fun r f => (v r f : EReal))).l = ((c * l + tL e M' : ℝ) : EReal) ∧
    ∀ f, (s.step (fun r => (e r : EReal)) (fun r f => (v r f : EReal))).acc f
      = ((c * a f + tA e v M' f : ℝ) : EReal) := by
  unfold St.step
  simp only
  rw [hm, hc, hl]
  refine ⟨rfl, ?_, fun f => ?_⟩
  · simp only [exp_coe_sub]
    rw [EReal.coe_add, EReal.coe_mul, tL, coe_sum]
  · simp only [exp_coe_sub, ha]
    rw [EReal.coe_add, EReal.coe_mul, tA, coe_sum]
    simp only [EReal.coe_mul]

/-- The state holds, at a real shift, the sums over the tiles in `T`. -/
def Inv (eT : ℕ → Fin 512 → ℝ) (vT : ℕ → Fin 512 → Fin 1024 → ℝ) (s : St) (T : Finset ℕ) : Prop :=
  ∃ M : ℝ, s.m = (M : EReal) ∧ s.l = ((∑ t ∈ T, tL (eT t) M : ℝ) : EReal) ∧
    ∀ f, s.acc f = ((∑ t ∈ T, tA (eT t) (vT t) M f : ℝ) : EReal)

theorem inv_init (eT : ℕ → Fin 512 → ℝ) (vT : ℕ → Fin 512 → Fin 1024 → ℝ) (n : ℕ) :
    Inv eT vT (St.init.step (fun r => (eT n r : EReal)) (fun r f => (vT n r f : EReal))) {n} := by
  obtain ⟨M', hM'⟩ := fold_max_isReal (fun r : Fin 512 => (eT n r : EReal)) (fun r => ⟨_, rfl⟩)
  have h := step_core St.init (eT n) (vT n) M' 0 0 (fun _ => 0)
    (by rw [hM']; exact max_bot_left _)
    (by show Ideal.exp (⊥ - (M' : EReal)) = _; rw [EReal.bot_sub]; rfl) rfl (fun _ => rfl)
  refine ⟨M', h.1, ?_, fun f => ?_⟩
  · rw [h.2.1]; simp
  · rw [h.2.2 f]; simp

theorem inv_step (eT : ℕ → Fin 512 → ℝ) (vT : ℕ → Fin 512 → Fin 1024 → ℝ) (s : St) (T : Finset ℕ) (n : ℕ)
    (hn : n ∉ T) (h : Inv eT vT s T) :
    Inv eT vT (s.step (fun r => (eT n r : EReal)) (fun r f => (vT n r f : EReal))) (insert n T) := by
  obtain ⟨M, hm, hl, ha⟩ := h
  obtain ⟨mt, hmt⟩ := fold_max_isReal (fun r : Fin 512 => (eT n r : EReal)) (fun r => ⟨_, rfl⟩)
  have h := step_core s (eT n) (vT n) (max M mt) (Real.exp (M - max M mt)) _ _
    (by rw [hm, hmt]; exact (Monotone.map_max EReal.coe_strictMono.monotone).symm)
    (by rw [hm]; exact exp_coe_sub _ _) hl ha
  refine ⟨max M mt, h.1, ?_, fun f => ?_⟩
  · rw [h.2.1, Finset.sum_insert hn, Finset.mul_sum]
    simp only [tL_rescale]
    rw [add_comm]
  · rw [h.2.2 f, Finset.sum_insert hn, Finset.mul_sum]
    simp only [tA_rescale]
    rw [add_comm]

/-- After tile `n` the state holds the sums over the tiles of `n`'s half seen so far. -/
theorem chain_inv (eT : ℕ → Fin 512 → ℝ) (vT : ℕ → Fin 512 → Fin 1024 → ℝ) (n : ℕ) :
    Inv eT vT (chain (fun t r => (eT t r : EReal)) (fun t r f => (vT t r f : EReal)) n)
      (Finset.Ico (64 * (n / 64)) (n + 1)) := by
  induction n with
  | zero =>
    have : Finset.Ico (64 * (0 / 64)) (0 + 1) = {0} := by ext x; simp
    rw [this]; exact inv_init eT vT 0
  | succ n ih =>
    rw [chain]
    split_ifs with hmod
    · have : Finset.Ico (64 * ((n + 1) / 64)) (n + 1 + 1) = {n + 1} := by ext x; simp; omega
      rw [this]; exact inv_init eT vT (n + 1)
    · have h1 : (n + 1) / 64 = n / 64 := by omega
      have : Finset.Ico (64 * ((n + 1) / 64)) (n + 1 + 1) = insert (n + 1) (Finset.Ico (64 * (n / 64)) (n + 1)) := by
        ext x; simp; omega
      rw [this]
      exact inv_step eT vT _ _ (n + 1) (by simp) ih

/-- The sum over all tiles of the sum over a tile's rows is the sum over all rows. -/
theorem sum_tiles (g : Fin 65536 → ℝ) :
    ∑ t ∈ Finset.range 128, ∑ r : Fin 512, g (row t r) = ∑ n, g n := by
  rw [Finset.sum_range (fun t => ∑ r : Fin 512, g (row t r))]
  rw [← Fintype.sum_prod_type' (fun (t : Fin 128) (r : Fin 512) => g (row t r))]
  refine Fintype.sum_equiv (finProdFinEquiv.trans (finCongr (by norm_num))) _ _ ?_
  rintro ⟨t, r⟩
  congr 1
  apply Fin.ext
  have ht := t.isLt
  have hr := r.isLt
  simp [row, finProdFinEquiv]
  omega

/-- A softmax-weighted sum does not depend on its (real) shift. -/
theorem shift_indep {ι : Type} [Fintype ι] [Nonempty ι] (e v : ι → ℝ) (c : ℝ) :
    (∑ n, Real.exp (e n - c) * v n) * (1 / ∑ n, Real.exp (e n - c))
      = (∑ n, Real.exp (e n) * v n) * (1 / ∑ n, Real.exp (e n)) := by
  have h1 : ∀ n, Real.exp (e n - c) = Real.exp (e n) * Real.exp (-c) := by
    intro n; rw [sub_eq_add_neg, Real.exp_add]
  have hS : 0 < ∑ n, Real.exp (e n) := Finset.sum_pos (fun _ _ => Real.exp_pos _) Finset.univ_nonempty
  have hc : 0 < Real.exp (-c) := Real.exp_pos _
  simp only [h1]
  rw [← Finset.sum_mul]
  have h2 : ∑ n, Real.exp (e n) * Real.exp (-c) * v n = (∑ n, Real.exp (e n) * v n) * Real.exp (-c) := by
    rw [Finset.sum_mul]; refine Finset.sum_congr rfl fun n _ => ?_; ring
  rw [h2]
  field_simp

/-- Two half states merged: the quotient of the two sums over all 128 tiles at the common (real) shift. -/
theorem merge_of_inv (eT : ℕ → Fin 512 → ℝ) (vT : ℕ → Fin 512 → Fin 1024 → ℝ) (s : Fin 2 → St)
    (h0 : Inv eT vT (s 0) (Finset.Ico 0 64)) (h1 : Inv eT vT (s 1) (Finset.Ico 64 128)) (f : Fin 1024) :
    ∃ mg : ℝ, merge s f = Ideal.div
      ((∑ t ∈ Finset.range 128, tA (eT t) (vT t) mg f : ℝ) : EReal)
      ((∑ t ∈ Finset.range 128, tL (eT t) mg : ℝ) : EReal) := by
  obtain ⟨M0, hm0, hl0, ha0⟩ := h0
  obtain ⟨M1, hm1, hl1, ha1⟩ := h1
  obtain ⟨mg, hmg⟩ := fold_max_isReal (fun p : Fin 2 => (s p).m)
    (Fin.forall_fin_two.2 ⟨⟨M0, hm0⟩, ⟨M1, hm1⟩⟩)
  refine ⟨mg, ?_⟩
  unfold merge
  rw [hmg]
  simp only [Fin.sum_univ_two, zero_add]
  rw [hm0, hm1, hl0, hl1, ha0 f, ha1 f]
  simp only [exp_coe_sub, ← EReal.coe_mul, ← EReal.coe_add, Finset.mul_sum, tA_rescale, tL_rescale]
  rw [Finset.range_eq_Ico,
    ← Finset.sum_Ico_consecutive _ (by norm_num : 0 ≤ 64) (by norm_num : 64 ≤ 128),
    ← Finset.sum_Ico_consecutive _ (by norm_num : 0 ≤ 64) (by norm_num : 64 ≤ 128)]

/-- The merged online softmax over the two halves (tiles 0..63 and 64..127) equals the direct form at any real shift. -/
theorem merge_chain_eq_refOut (E : Fin 65536 → EReal) (V : Fin 65536 → Fin 1024 → EReal)
    (hE : ∀ n, IsReal (E n)) (hV : ∀ n f, IsReal (V n f)) (M : EReal) (hM : IsReal M) (f : Fin 1024) :
    merge (fun p => chain (fun t r => E (row t r)) (fun t r => V (row t r)) (64 * p.val + 63)) f = refOut E V M f := by
  obtain ⟨Mr, rfl⟩ := hM
  choose e he using hE
  choose v hv using hV
  obtain rfl : E = fun n => (e n : EReal) := funext he
  obtain rfl : V = fun n f => (v n f : EReal) := funext fun n => funext (hv n)
  have hc0 : Inv (fun t r => e (row t r)) (fun t r f => v (row t r) f)
      (chain (fun t r => (e (row t r) : EReal)) (fun t r f => (v (row t r) f : EReal)) 63) (Finset.Ico 0 64) :=
    chain_inv (fun t r => e (row t r)) (fun t r f => v (row t r) f) 63
  have hc1 : Inv (fun t r => e (row t r)) (fun t r f => v (row t r) f)
      (chain (fun t r => (e (row t r) : EReal)) (fun t r f => (v (row t r) f : EReal)) 127) (Finset.Ico 64 128) :=
    chain_inv (fun t r => e (row t r)) (fun t r f => v (row t r) f) 127
  obtain ⟨mg, hmg⟩ := merge_of_inv (fun t r => e (row t r)) (fun t r f => v (row t r) f)
    (fun p : Fin 2 => chain (fun t r => (e (row t r) : EReal)) (fun t r f => (v (row t r) f : EReal)) (64 * p.val + 63))
    hc0 hc1 f
  have hA : ∑ t ∈ Finset.range 128, tA (fun r => e (row t r)) (fun r f => v (row t r) f) mg f
      = ∑ n, Real.exp (e n - mg) * v n f := sum_tiles (fun n => Real.exp (e n - mg) * v n f)
  have hL : ∑ t ∈ Finset.range 128, tL (fun r => e (row t r)) mg = ∑ n, Real.exp (e n - mg) :=
    sum_tiles (fun n => Real.exp (e n - mg))
  rw [hA, hL] at hmg
  haveI : Nonempty (Fin 65536) := ⟨⟨0, by norm_num⟩⟩
  have hpos : ∀ c : ℝ, 0 < ∑ n : Fin 65536, Real.exp (e n - c) :=
    fun c => Finset.sum_pos (fun _ _ => Real.exp_pos _) Finset.univ_nonempty
  refine hmg.trans ?_
  rw [Ideal.div_coe (hpos mg).ne', ← EReal.coe_mul]
  unfold refOut
  simp only [exp_coe_sub, ← coe_sum, zero_add]
  simp only [Ideal.div_coe (hpos Mr).ne', ← EReal.coe_mul, ← coe_sum]
  rw [EReal.coe_eq_coe_iff]
  have key := (shift_indep e (fun n => v n f) mg).trans (shift_indep e (fun n => v n f) Mr).symm
  rw [key, Finset.sum_mul]
  refine Finset.sum_congr rfl fun n _ => ?_
  ring

end Cert.Attn

end
-- ==== Proof.RefSide.lean ====
/-
  The reference read at an entry of its result: the energies of all rows, their maximum as the shift, the shifted
  exponentials divided by their sum, and that row vector times the value array — the direct softmax-weighted sum of the
  specification, at the reference's own shift, which is a real number when the energies are.
-/
import proofs.«152375_j14955076125142_1_alg».proof.Proof.Gen.ReferenceIdeal.Read
import proofs.«152375_j14955076125142_1_alg».proof.Proof.Spec
import proofs.«152375_j14955076125142_1_alg».proof.Proof.Softmax
import Idealize.ShloMosaic.Lib.ValueIdx
import Idealize.ShloMosaic.Lib.ValueIdxRank1
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.Attn

open Cert.ReferenceIdeal Cert.ReferenceIdeal.Gen Cert.ReferenceIdeal.Read Cert.Attn

variable (m : (ℓ : Loc nD τ sig) → Buf (Elt Ideal) ℓ)

/-- The energies of all rows, from the reference's launch contents. -/
def Er (c : Dev nD) : Fin 65536 → EReal := Eof (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The value rows. -/
def Vr (c : Dev nD) : Fin 65536 → Fin 1024 → EReal := Vof (m ((c.tc : Thread nD τ).loc main_arg2))

/-- The reference's shift: the maximum of the energies as its program computes it. -/
def Mr (c : Dev nD) : EReal := val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) ix0

section Stages

/-- Two rank-2 indices with the same coordinates are equal. -/
local macro "same_ix2" : tactic => `(tactic| (funext a; match a with | ⟨0, _⟩ => rfl | ⟨1, _⟩ => rfl))
/-- Two rank-1 indices with the same coordinate are equal. -/
local macro "same_ix1" : tactic => `(tactic| (funext a; match a with | ⟨0, _⟩ => rfl))

variable (x0 x1 x2 : (⟨S65536x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-- One encoding: a row's input vector against a feature-major weight matrix, plus the bias, clipped at zero. -/
def enc (X : (⟨S65536x1024, .f32⟩ : BufTy).Contents (Elt Ideal)) (W : (⟨S1024x1024, .f32⟩ : BufTy).Contents (Elt Ideal))
    (b : (⟨S1024, .f32⟩ : BufTy).Contents (Elt Ideal)) (n : Fin 65536) (f : Fin 1024) : EReal :=
  max ((∑ j : Fin 1024, X (ix2 n j) * W (ix2 f j)) + b (ix1 f)) 0

/-- The first encoding of row `n` at feature `f`. -/
theorem v5_ix (n : Fin 65536) (f : Fin 1024) :
    val_main_v5 (F := Ideal) x1 x3 x4 (ix2 n f) = enc x1 x3 x4 n f := by
  rw [val_main_v5_apply, val_main_v4_apply, val_main_v1_apply, val_main_v3_apply, val_main_v2_apply,
    val_main_call0_v0_apply, val_main_call0_cst_apply, Ideal.maximumf_def, Ideal.addf_def, Ideal.ofBits_def,
    Ideal.ofBits_zero_f32]
  unfold enc
  refine congrArg₂ max (congrArg₂ (· + ·) (Finset.sum_congr rfl fun j _ => ?_) (congrArg x4 (by same_ix1))) rfl
  rw [val_main_v0_apply]
  exact congrArg₂ (· * ·) (congrArg x1 (by same_ix2)) (congrArg x3 (by same_ix2))

/-- The second encoding of row `n` at feature `g`. -/
theorem v11_ix (n : Fin 65536) (g : Fin 1024) :
    val_main_v11 (F := Ideal) x0 x5 x6 (ix2 n g) = enc x0 x5 x6 n g := by
  rw [val_main_v11_apply, val_main_v10_apply, val_main_v7_apply, val_main_v9_apply, val_main_v8_apply,
    val_main_call1_v0_apply, val_main_call1_cst_apply, Ideal.maximumf_def, Ideal.addf_def, Ideal.ofBits_def,
    Ideal.ofBits_zero_f32]
  unfold enc
  refine congrArg₂ max (congrArg₂ (· + ·) (Finset.sum_congr rfl fun j _ => ?_) (congrArg x6 (by same_ix1))) rfl
  rw [val_main_v6_apply]
  exact congrArg₂ (· * ·) (congrArg x0 (by same_ix2)) (congrArg x5 (by same_ix2))

/-- The second encoding through the third weight matrix, plus its bias. -/
theorem v16_ix (n : Fin 65536) (f : Fin 1024) :
    val_main_v16 (F := Ideal) x0 x5 x6 x7 x8 (ix2 n f)
      = (∑ g : Fin 1024, enc x0 x5 x6 n g * x7 (ix2 f g)) + x8 (ix1 f) := by
  rw [val_main_v16_apply, val_main_v13_apply, val_main_v15_apply, val_main_v14_apply, Ideal.addf_def]
  refine congrArg₂ (· + ·) (Finset.sum_congr rfl fun g _ => ?_) (congrArg x8 (by same_ix1))
  rw [val_main_v12_apply]
  refine congrArg₂ (· * ·) ?_ (congrArg x7 (by same_ix2))
  exact (congrArg (val_main_v11 (F := Ideal) x0 x5 x6) (by same_ix2)).trans (v11_ix x0 x5 x6 n g)

/-- The reference's energy of row `n` is the specification's. -/
theorem v18_ix (n : Fin 65536) :
    val_main_v18 (F := Ideal) x0 x1 x3 x4 x5 x6 x7 x8 (ix1 n) = Eof x0 x1 x3 x4 x5 x6 x7 x8 n := by
  rw [val_main_v18_apply, val_main_cst_apply, Ideal.ofBits_def, Ideal.ofBits_zero_f32, zero_add]
  unfold Eof rowE
  refine Finset.sum_congr rfl fun f _ => ?_
  rw [val_main_v17_apply, Ideal.mulf_def]
  refine congrArg₂ (· * ·) ?_ ?_
  · exact (congrArg (val_main_v5 (F := Ideal) x1 x3 x4) (by same_ix2)).trans (v5_ix x1 x3 x4 n f)
  · exact (congrArg (val_main_v16 (F := Ideal) x0 x5 x6 x7 x8) (by same_ix2)).trans (v16_ix x0 x5 x6 x7 x8 n f)

/-- The shift, broadcast over the rows, is the one scalar at every row. -/
theorem v22_ix (n : Fin 65536) :
    val_main_v22 (F := Ideal) x0 x1 x3 x4 x5 x6 x7 x8 (ix1 n) = val_main_v20 (F := Ideal) x0 x1 x3 x4 x5 x6 x7 x8 ix0 := by
  rw [val_main_v22_apply, val_main_v21_apply]

/-- The shifted exponential of row `n`. -/
theorem v24_ix (n : Fin 65536) :
    val_main_v24 (F := Ideal) x0 x1 x3 x4 x5 x6 x7 x8 (ix1 n)
      = Ideal.exp (Eof x0 x1 x3 x4 x5 x6 x7 x8 n - val_main_v20 (F := Ideal) x0 x1 x3 x4 x5 x6 x7 x8 ix0) := by
  rw [val_main_v24_apply, val_main_v23_apply, Ideal.hostUnary_exp_def, Ideal.subf_def, v18_ix, v22_ix]

/-- The sum of the shifted exponentials, broadcast over the rows. -/
theorem v27_ix (n : Fin 65536) :
    val_main_v27 (F := Ideal) x0 x1 x3 x4 x5 x6 x7 x8 (ix1 n)
      = 0 + ∑ n' : Fin 65536, Ideal.exp (Eof x0 x1 x3 x4 x5 x6 x7 x8 n' - val_main_v20 (F := Ideal) x0 x1 x3 x4 x5 x6 x7 x8 ix0) := by
  rw [val_main_v27_apply, val_main_v26_apply, val_main_v25_apply, val_main_cst_2_apply, Ideal.ofBits_def,
    Ideal.ofBits_zero_f32]
  refine congrArg (0 + ·) ?_
  rw [← Equiv.sum_comp (idxEquiv1 (n := 65536)).symm]
  exact Finset.sum_congr rfl fun n' _ => v24_ix x0 x1 x3 x4 x5 x6 x7 x8 n'

/-- The reference's result at feature `f`: the softmax weights against the value rows. -/
theorem v30_ix (f : Fin 1024) :
    val_main_v30 (F := Ideal) x0 x1 x2 x3 x4 x5 x6 x7 x8 (ix2 (0 : Fin 1) f)
      = refOut (Eof x0 x1 x3 x4 x5 x6 x7 x8) (Vof x2) (val_main_v20 (F := Ideal) x0 x1 x3 x4 x5 x6 x7 x8 ix0) f := by
  rw [val_main_v30_apply]
  unfold refOut Vof
  refine Finset.sum_congr rfl fun n _ => ?_
  refine congrArg₂ (· * ·) ?_ (congrArg x2 (by same_ix2))
  rw [val_main_v29_apply]
  refine (congrArg (val_main_v28 (F := Ideal) x0 x1 x3 x4 x5 x6 x7 x8) (show _ = ix1 n by same_ix1)).trans ?_
  rw [val_main_v28_apply, Ideal.hostDivf_def, v24_ix, v27_ix]

end Stages

/-- The reference's result at (0, f) is the direct softmax-weighted sum at the reference's shift. -/
theorem res_eq (c : Dev nD) (f : Fin 1024) :
    Cert.ReferenceIdeal.Value.res_out0 (F := Ideal) m c (ix2 0 f) = refOut (Er m c) (Vr m c) (Mr m c) f := by
  refine (congrFun (val_main_v30_eq (F := Ideal) m c) (ix2 0 f)).trans ?_
  exact v30_ix _ _ _ _ _ _ _ _ _ f

/-- The bit pattern of the reference's two maximum constants denotes -∞. -/
theorem ninf_f32 : Ideal.ofBits .f32 0xFF800000#32 = ⊥ := by simp [Ideal.ofBits, Ideal.ieee]

/-- The reference's shift is a real number when every energy is. -/
theorem Mr_isReal (c : Dev nD) (hE : ∀ n, IsReal (Er m c n)) : IsReal (Mr m c) := by
  unfold Mr
  rw [val_main_v20_apply, val_main_cst_1_apply, Ideal.maximumf_def, Ideal.ofBits_def, ninf_f32, max_eq_right bot_le]
  unfold val_main_v19
  have h := Host.reduce_eq_fold (max : EReal → EReal → EReal) (val_main_v18 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
    (val_main_cst_0 (F := Ideal)) reducesTo_S65536_S_d0 h_S_ ix0
  rw [Finset.filter_true_of_mem fun i _ => funext fun b => b.elim0] at h
  refine (congrArg IsReal h).mpr ?_
  rw [val_main_cst_0_apply, Ideal.ofBits_def, ninf_f32]
  haveI : Nonempty S65536.Idx := ⟨ix1 (⟨0, by decide⟩ : Fin 65536)⟩
  refine fold_max_isReal _ fun k => ?_
  obtain ⟨n, rfl⟩ : ∃ n : Fin 65536, k = ix1 n :=
    ⟨⟨(k 0).val, (k 0).isLt⟩, by funext a; match a with | ⟨0, _⟩ => rfl⟩
  rw [v18_ix]
  exact hE n

end Cert.ReferenceIdeal.Attn

end
-- ==== Proof.Finite.lean ====
/-
  The precondition says every entry of every input array is smaller in absolute value than +∞; over the extended reals
  that makes every entry a real number.
-/
import proofs.«152375_j14955076125142_1_alg».proof.Pre_finite_inputs
import proofs.«152375_j14955076125142_1_alg».proof.Proof.Spec
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx

/-- An extended real whose absolute value is below +∞ is a real number. -/
theorem isReal_of_abs_lt_top (x : EReal) (h : max x (-x) < ⊤) : IsReal x := by
  induction x using EReal.rec with
  | bot => simp at h
  | coe r => exact ⟨r, rfl⟩
  | top => simp at h

/-- A one-bit word made from a truth value is 1 exactly when the value is true. -/
theorem word_true_iff (b : Bool) : BitVec.ofBool b = 1#1 ↔ b = true := by cases b <;> decide

/-- The word the entries are compared with is +∞. -/
theorem bound_eq_top : Ideal.ofBits .f32 0x7F800000#32 = (⊤ : EReal) := by
  simp [Ideal.ofBits, Ideal.ieee]

/-- A rank-0 array has one index. -/
instance : Subsingleton Cert.Pre_finite_inputs.S_.Idx := ⟨fun a b => funext fun d => d.elim0⟩

/-- One array's part of the precondition: if "every |entry| is below the +∞ word" reduces to true, every entry is real. -/
theorem all_isReal {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hS : 0 < Cert.Pre_finite_inputs.S_.numel)
    (h : Host.reduce IntOp.andi
        (cmpf .olt (Host.absf a) (broadcastInDim s ![] bc (constant Cert.Pre_finite_inputs.S_ .f32 0x7F800000#32)))
        (constantI Cert.Pre_finite_inputs.S_ 1 1#1) hr hS ix0 = 1#1) (i : s.Idx) : IsReal (a i) := by
  have e := Host.reduce_andi_all _ _ hr hS ix0 h i
  have e' : Ideal.cmp .olt (max (a i) (-(a i))) (Ideal.ofBits .f32 0x7F800000#32) = 1#1 := e
  rw [bound_eq_top] at e'
  have e2 : BitVec.ofBool (decide (max (a i) (-(a i)) < ⊤)) = 1#1 := e'
  exact isReal_of_abs_lt_top _ (of_decide_eq_true ((word_true_iff _).1 e2))

/-- Under the precondition every entry of the nine input arrays is a real number. -/
theorem isReal_of_finite_inputs [Cert.Pre_finite_inputs.Facts]
    (a0 a1 a2 : FVec Ideal Cert.Pre_finite_inputs.S65536x1024 .f32) (a3 : FVec Ideal Cert.Pre_finite_inputs.S1024x1024 .f32) (a4 : FVec Ideal Cert.Pre_finite_inputs.S1024 .f32)
    (a5 : FVec Ideal Cert.Pre_finite_inputs.S1024x1024 .f32) (a6 : FVec Ideal Cert.Pre_finite_inputs.S1024 .f32) (a7 : FVec Ideal Cert.Pre_finite_inputs.S1024x1024 .f32)
    (a8 : FVec Ideal Cert.Pre_finite_inputs.S1024 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have e := congrFun h ix0
  unfold Cert.Pre_finite_inputs.fn Cert.Pre_finite_inputs.fn_part1 Cert.Pre_finite_inputs.fn_part2 at e
  simp only [andi, IntOp.andi_eq_one] at e
  obtain ⟨⟨⟨⟨⟨⟨⟨⟨h0, h1⟩, h2⟩, h3⟩, h4⟩, h5⟩, h6⟩, h7⟩, h8⟩ := e
  exact ⟨all_isReal a0 _ _ _ h0, all_isReal a1 _ _ _ h1, all_isReal a2 _ _ _ h2, all_isReal a3 _ _ _ h3,
    all_isReal a4 _ _ _ h4, all_isReal a5 _ _ _ h5, all_isReal a6 _ _ _ h6, all_isReal a7 _ _ _ h7,
    all_isReal a8 _ _ _ h8⟩

end Cert.Attn

end
-- ==== Proof.RealLemmas.lean ====
/-
  Sums, products and maxima of real numbers are real numbers: a row's energy is real when its inputs are.
-/
import proofs.«152375_j14955076125142_1_alg».proof.Proof.Spec

noncomputable section

open scoped BigOperators

namespace Cert.Attn

open Idealize.ShloMosaic

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The maximum of a real number and zero is a real number. -/
theorem isReal_max_zero {x : EReal} (hx : IsReal x) : IsReal (max x 0) := by
  obtain ⟨a, rfl⟩ := hx
  exact ⟨max a 0, by rw [Monotone.map_max EReal.coe_strictMono.monotone, EReal.coe_zero]⟩

/-- A finite sum of real numbers is a real number. -/
theorem isReal_sum {ι : Type} (s : Finset ι) (g : ι → EReal) (h : ∀ i, IsReal (g i)) : IsReal (∑ i ∈ s, g i) := by
  classical
  induction s using Finset.induction_on with
  | empty => exact ⟨0, by simp⟩
  | insert a s ha ih => rw [Finset.sum_insert ha]; exact isReal_add (h a) ih

theorem rowE_isReal (q k : Fin 1024 → EReal) (w0 : Fin 1024 → Fin 1024 → EReal) (b0 : Fin 1024 → EReal)
    (w1 : Fin 1024 → Fin 1024 → EReal) (b1 : Fin 1024 → EReal) (wa : Fin 1024 → Fin 1024 → EReal) (ba : Fin 1024 → EReal)
    (hq : ∀ j, IsReal (q j)) (hk : ∀ j, IsReal (k j)) (hw0 : ∀ j f, IsReal (w0 j f)) (hb0 : ∀ f, IsReal (b0 f))
    (hw1 : ∀ j g, IsReal (w1 j g)) (hb1 : ∀ g, IsReal (b1 g)) (hwa : ∀ g f, IsReal (wa g f)) (hba : ∀ f, IsReal (ba f)) :
    IsReal (rowE q k w0 b0 w1 b1 wa ba) := by
  unfold rowE
  refine isReal_sum _ _ fun f => isReal_mul ?_ ?_
  · exact isReal_max_zero (isReal_add (isReal_sum _ _ fun j => isReal_mul (hq j) (hw0 j f)) (hb0 f))
  · refine isReal_add (isReal_sum _ _ fun g => isReal_mul ?_ (hwa g f)) (hba f)
    exact isReal_max_zero (isReal_add (isReal_sum _ _ fun j => isReal_mul (hk j) (hw1 j g)) (hb1 g))

end Cert.Attn

end
-- ==== Proof.lean ====
/-
  The certificate of a single-query attention kernel against its plain reference, over the extended reals.

  Both programs compute, for each of 65536 rows, a scalar energy (two ReLU-encoded projections of the row's inputs, a
  third projection of one of them, an inner product), and return the softmax over all rows applied to the value rows.
  The reference takes one softmax: shift by the maximum energy, exponentials divided by their sum, that row vector
  times the value array. The kernel streams the rows in 128 tiles of 512, two independent halves of 64 tiles each
  keeping an online-softmax state (a shift, the sum of shifted exponentials, the weighted sum of value rows), and the
  host merges the two states at their common shift and divides once at the end.

  The two agree because a softmax does not depend on its shift: rescaling by exp(m - m') when the shift moves from m to
  m' turns every term exp(e - m) into exp(e - m'), and dividing the weighted sum by the plain sum cancels the common
  factor. That law needs every energy and value to be a real number, which the precondition gives: the inputs are
  finite, and sums, products and maxima of reals are real. The frames are the generated ones; the reference's frame is
  its generated run with the result dropped.
-/
import proofs.«152375_j14955076125142_1_alg».proof.Defs
import proofs.«152375_j14955076125142_1_alg».proof.Proof.Gen.Kernel
import proofs.«152375_j14955076125142_1_alg».proof.Proof.Gen.Kernel.Skeleton
import proofs.«152375_j14955076125142_1_alg».proof.Proof.Gen.Kernel.Launch
import proofs.«152375_j14955076125142_1_alg».proof.Proof.Gen.Kernel.Points
import proofs.«152375_j14955076125142_1_alg».proof.Proof.Gen.Kernel.Frame
import proofs.«152375_j14955076125142_1_alg».proof.Proof.Gen.KernelIdeal
import proofs.«152375_j14955076125142_1_alg».proof.Proof.Gen.KernelIdeal.Skeleton
import proofs.«152375_j14955076125142_1_alg».proof.Proof.Gen.KernelIdeal.Launch
import proofs.«152375_j14955076125142_1_alg».proof.Proof.Gen.KernelIdeal.Points
import proofs.«152375_j14955076125142_1_alg».proof.Proof.Gen.KernelIdeal.Frame
import proofs.«152375_j14955076125142_1_alg».proof.Proof.Gen.ReferenceIdeal
import proofs.«152375_j14955076125142_1_alg».proof.Proof.Gen.ReferenceIdeal.Run
import proofs.«152375_j14955076125142_1_alg».proof.Proof.Gen.ReferenceIdeal.Read
import proofs.«152375_j14955076125142_1_alg».proof.Proof.Gen.Pre_finite_inputs
import proofs.«152375_j14955076125142_1_alg».proof.Proof.KernelRun
import proofs.«152375_j14955076125142_1_alg».proof.Proof.RefSide
import proofs.«152375_j14955076125142_1_alg».proof.Proof.Finite
import proofs.«152375_j14955076125142_1_alg».proof.Proof.RealLemmas
import proofs.«152375_j14955076125142_1_alg».proof.Proof.Softmax
import Idealize.ShloMosaic.Adequacy
import Idealize.ShloMosaic.Init

noncomputable section

namespace Cert.Proof

open Idealize.ShloMosaic Idealize.ShloMosaic.TcCoe Idealize.SL.Sem Idealize.ShloMosaic.ValueIdx
open Cert.Attn Cert.KernelIdeal.Attn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every row's energy is a real number. -/
theorem energies_real (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 65536) : IsReal (Em m c n) := by
  obtain ⟨r0, r1, r2, r3, r4, r5, r6, r7, r8⟩ := isReal_of_finite_inputs
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (hpre c)
  unfold Em Eof
  exact rowE_isReal _ _ _ _ _ _ _ _ (fun j => r1 _) (fun j => r0 _) (fun j f => r3 _) (fun f => r4 _)
    (fun j g => r5 _) (fun g => r6 _) (fun g f => r7 _) (fun f => r8 _)

/-- Under the precondition every value entry is a real number. -/
theorem values_real (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 65536) (f : Fin 1024) : IsReal (Vm m c n f) := by
  obtain ⟨r0, r1, r2, r3, r4, r5, r6, r7, r8⟩ := isReal_of_finite_inputs
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (hpre c)
  unfold Vm Vof
  exact r2 _

/-- The two programs end with equal results: the kernel's merge of its two halves is the direct softmax-weighted sum at
    the reference's shift, by the shift-independence of the softmax over real energies and values. -/
theorem algebraic : Cert.algebraic_KernelIdeal_ReferenceIdeal := by
  intro m ρ m' ρ' hpre hagree
  refine ⟨fun c => tailTerm (arrM m c) (arrL m c) (arrA m c), Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8⟩ := hagree c
  have hEr : Cert.ReferenceIdeal.Attn.Er m' c = Em m c := by
    unfold Cert.ReferenceIdeal.Attn.Er Em
    rw [g0, g1, g3, g4, g5, g6, g7, g8]
  have hVr : Cert.ReferenceIdeal.Attn.Vr m' c = Vm m c := by
    unfold Cert.ReferenceIdeal.Attn.Vr Vm
    rw [g2]
  have hE : ∀ n, IsReal (Em m c n) := energies_real m hpre c
  have hV : ∀ n f, IsReal (Vm m c n f) := values_real m hpre c
  have hM : IsReal (Cert.ReferenceIdeal.Attn.Mr m' c) := Cert.ReferenceIdeal.Attn.Mr_isReal m' c (by rw [hEr]; exact hE)
  funext i
  obtain ⟨f, rfl⟩ : ∃ f : Fin 1024, i = ix2 (0 : Fin 1) f :=
    ⟨⟨(i 1).val, (i 1).isLt⟩, funext fun a => by
      match a with
      | ⟨0, _⟩ => exact Fin.ext (by have h1 : (i 0).val < 1 := (i 0).isLt; show (i 0).val = 0; omega)
      | ⟨1, _⟩ => rfl⟩
  refine (Cert.ReferenceIdeal.Attn.res_eq m' c f).trans ?_
  rw [hEr, hVr]
  refine Eq.trans ?_ (result_apply m c f).symm
  exact (merge_chain_eq_refOut (Em m c) (Vm m c) hE hV _ hM f).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
